-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x28x28 : Shape := ⟨3, ![16, 28, 28]⟩
abbrev S784x10000 : Shape := ⟨2, ![784, 10000]⟩
abbrev S1000x10000 : Shape := ⟨2, ![1000, 10000]⟩
abbrev S10x10000 : Shape := ⟨2, ![10, 10000]⟩
abbrev S_ : Shape := ⟨0, ![]⟩

class Facts : Prop where
  bcast_S_S16x28x28 : S_.BroadcastsInDim S16x28x28 (![] : Fin 0 → Fin S16x28x28.rank)
  reducesTo_S16x28x28_S_d0_1_2 : S16x28x28.ReducesTo [0, 1, 2] S_
  h_S_ : 0 < S_.numel
  bcast_S_S784x10000 : S_.BroadcastsInDim S784x10000 (![] : Fin 0 → Fin S784x10000.rank)
  reducesTo_S784x10000_S_d0_1 : S784x10000.ReducesTo [0, 1] S_
  bcast_S_S1000x10000 : S_.BroadcastsInDim S1000x10000 (![] : Fin 0 → Fin S1000x10000.rank)
  reducesTo_S1000x10000_S_d0_1 : S1000x10000.ReducesTo [0, 1] S_
  bcast_S_S10x10000 : S_.BroadcastsInDim S10x10000 (![] : Fin 0 → Fin S10x10000.rank)
  reducesTo_S10x10000_S_d0_1 : S10x10000.ReducesTo [0, 1] S_

variable [Facts]

def fn_part1 {F : FTy → Type} [FloatOps F] (main_v13 : IVec S_ 1) (main_v16 : IVec S10x10000 1) : IVec S_ 1 :=
  let main_c_5 : IVec S_ 1 := constantI S_ 1 1#1
  let main_v17 : IVec S_ 1 := (fun x v => Host.reduce IntOp.andi x v reducesTo_S10x10000_S_d0_1 h_S_) main_v16 main_c_5
  let main_v18 : IVec S_ 1 := andi main_v13 main_v17
  main_v18

def fn {F : FTy → Type} [FloatOps F] (main_arg0 : FVec F S16x28x28 .f32) (main_arg1 : FVec F S784x10000 .f32) (main_arg2 : FVec F S1000x10000 .f32) (main_arg3 : FVec F S10x10000 .f32) : IVec S_ 1 :=
  let main_v0 : FVec F S16x28x28 .f32 := Host.absf main_arg0
  let main_cst : FVec F S_ .f32 := constant S_ .f32 0x7F800000#32
  let main_v1 : FVec F S16x28x28 .f32 := broadcastInDim S16x28x28 ![] bcast_S_S16x28x28 main_cst
  let main_v2 : IVec S16x28x28 1 := cmpf .olt main_v0 main_v1
  let main_c : IVec S_ 1 := constantI S_ 1 1#1
  let main_v3 : IVec S_ 1 := (fun x v => Host.reduce IntOp.andi x v reducesTo_S16x28x28_S_d0_1_2 h_S_) main_v2 main_c
  let main_v4 : FVec F S784x10000 .f32 := Host.absf main_arg1
  let main_cst_0 : FVec F S_ .f32 := constant S_ .f32 0x7F800000#32
  let main_v5 : FVec F S784x10000 .f32 := broadcastInDim S784x10000 ![] bcast_S_S784x10000 main_cst_0
  let main_v6 : IVec S784x10000 1 := cmpf .olt main_v4 main_v5
  let main_c_1 : IVec S_ 1 := constantI S_ 1 1#1
  let main_v7 : IVec S_ 1 := (fun x v => Host.reduce IntOp.andi x v reducesTo_S784x10000_S_d0_1 h_S_) main_v6 main_c_1
  let main_v8 : IVec S_ 1 := andi main_v3 main_v7
  let main_v9 : FVec F S1000x10000 .f32 := Host.absf main_arg2
  let main_cst_2 : FVec F S_ .f32 := constant S_ .f32 0x7F800000#32
  let main_v10 : FVec F S1000x10000 .f32 := broadcastInDim S1000x10000 ![] bcast_S_S1000x10000 main_cst_2
  let main_v11 : IVec S1000x10000 1 := cmpf .olt main_v9 main_v10
  let main_c_3 : IVec S_ 1 := constantI S_ 1 1#1
  let main_v12 : IVec S_ 1 := (fun x v => Host.reduce IntOp.andi x v reducesTo_S1000x10000_S_d0_1 h_S_) main_v11 main_c_3
  let main_v13 : IVec S_ 1 := andi main_v8 main_v12
  let main_v14 : FVec F S10x10000 .f32 := Host.absf main_arg3
  let main_cst_4 : FVec F S_ .f32 := constant S_ .f32 0x7F800000#32
  let main_v15 : FVec F S10x10000 .f32 := broadcastInDim S10x10000 ![] bcast_S_S10x10000 main_cst_4
  let main_v16 : IVec S10x10000 1 := cmpf .olt main_v14 main_v15
  fn_part1 (F := F) main_v13 main_v16
-- ==== Kernel.lean ====
abbrev S16x28x28 : Shape := ⟨3, ![16, 28, 28]⟩
abbrev S784x10000 : Shape := ⟨2, ![784, 10000]⟩
abbrev S1000x10000 : Shape := ⟨2, ![1000, 10000]⟩
abbrev S10x10000 : Shape := ⟨2, ![10, 10000]⟩
abbrev S16x784 : Shape := ⟨2, ![16, 784]⟩
abbrev S_ : Shape := ⟨0, ![]⟩
abbrev S8x16x10 : Shape := ⟨3, ![8, 16, 10]⟩
abbrev S1000x1280 : Shape := ⟨2, ![1000, 1280]⟩
abbrev S784x1280 : Shape := ⟨2, ![784, 1280]⟩
abbrev S10x1280 : Shape := ⟨2, ![10, 1280]⟩
abbrev S1x16x10 : Shape := ⟨3, ![1, 16, 10]⟩
abbrev S16x1280 : Shape := ⟨2, ![16, 1280]⟩
abbrev S784x1000 : Shape := ⟨2, ![784, 1000]⟩
abbrev S1x784 : Shape := ⟨2, ![1, 784]⟩
abbrev S784 : Shape := ⟨1, ![784]⟩
abbrev S784x1 : Shape := ⟨2, ![784, 1]⟩
abbrev S1280 : Shape := ⟨1, ![1280]⟩
abbrev S1x1280 : Shape := ⟨2, ![1, 1280]⟩
abbrev S1280x10 : Shape := ⟨2, ![1280, 10]⟩
abbrev S16x10 : Shape := ⟨2, ![16, 10]⟩

abbrev nBuf : Space → Nat
  | .hbm => 21
  | .vmem => 10
  | .smem => 0
  | _ => 0

abbrev bufTy : (tb : Table) → Fin (tcTables nBuf tb) → BufTy
  | .hbm, ⟨0, _⟩ => ⟨S16x28x28, .f32⟩
  | .hbm, ⟨1, _⟩ => ⟨S784x10000, .f32⟩
  | .hbm, ⟨2, _⟩ => ⟨S1000x10000, .f32⟩
  | .hbm, ⟨3, _⟩ => ⟨S10x10000, .f32⟩
  | .hbm, ⟨4, _⟩ => ⟨S16x784, .f32⟩
  | .hbm, ⟨5, _⟩ => ⟨S_, .f32⟩
  | .hbm, ⟨6, _⟩ => ⟨S16x784, .f32⟩
  | .hbm, ⟨7, _⟩ => ⟨S16x784, .f32⟩
  | .hbm, ⟨8, _⟩ => ⟨S16x784, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S16x784, .f32⟩
  | .hbm, ⟨13, _⟩ => ⟨S16x784, .f32⟩
  | .hbm, ⟨14, _⟩ => ⟨S_, .f32⟩
  | .hbm, ⟨15, _⟩ => ⟨S16x784, .f32⟩
  | .hbm, ⟨16, _⟩ => ⟨S16x784, .f32⟩
  | .hbm, ⟨17, _⟩ => ⟨S16x784, .i32⟩
  | .hbm, ⟨18, _⟩ => ⟨S8x16x10, .f32⟩
  | .hbm, ⟨19, _⟩ => ⟨S_, .f32⟩
  | .hbm, ⟨20, _⟩ => ⟨S16x10, .f32⟩
  | .local _ .vmem, ⟨0, _⟩ => ⟨S16x784, .i32⟩
  | .local _ .vmem, ⟨1, _⟩ => ⟨S1000x1280, .f32⟩
  | .local _ .vmem, ⟨2, _⟩ => ⟨S1000x1280, .f32⟩
  | .local _ .vmem, ⟨3, _⟩ => ⟨S784x1280, .f32⟩
  | .local _ .vmem, ⟨4, _⟩ => ⟨S784x1280, .f32⟩
  | .local _ .vmem, ⟨5, _⟩ => ⟨S10x1280, .f32⟩
  | .local _ .vmem, ⟨6, _⟩ => ⟨S10x1280, .f32⟩
  | .local _ .vmem, ⟨7, _⟩ => ⟨S1x16x10, .f32⟩
  | .local _ .vmem, ⟨8, _⟩ => ⟨S1x16x10, .f32⟩
  | .local _ .vmem, ⟨9, _⟩ => ⟨S16x1280, .f32⟩
  | _, _ => ⟨S16x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_c_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_off1 (k0_t1 : Fin k0_t1_loop.trips) : Fin 2 → Nat :=
  let c0_i32_16 : BitVec 32 := 0#32
  let c0_i32 : BitVec 32 := 0#32
  let c1_i32 : BitVec 32 := 1#32
  let arg7 : BitVec 32 := Scf.iv c0_i32 c1_i32 k0_t1
  let c1_i32_15 : BitVec 32 := 1#32
  let v25 : BitVec 32 := Scalar.muli arg7 c1_i32_15
  let v26 : BitVec 32 := Scalar.addi c0_i32_16 v25
  let v27 : Index := Scalar.indexCast v26
  let c0_17 : Index := 0#32
  ![v27.toNat, 0]
def k0_off2 (k0_t1 : Fin k0_t1_loop.trips) : Fin 2 → Nat :=
  let c0_i32_16 : BitVec 32 := 0#32
  let c0_i32 : BitVec 32 := 0#32
  let c1_i32 : BitVec 32 := 1#32
  let arg7 : BitVec 32 := Scf.iv c0_i32 c1_i32 k0_t1
  let c1_i32_15 : BitVec 32 := 1#32
  let v25 : BitVec 32 := Scalar.muli arg7 c1_i32_15
  let v26 : BitVec 32 := Scalar.addi c0_i32_16 v25
  let v39 : Index := Scalar.indexCast v26
  let c0_20 : Index := 0#32
  ![v39.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x784 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1000x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S784x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x28x28_S16x784 : S16x28x28.ShapeCasts S16x784
  bcast_S_S16x784 : S_.BroadcastsInDim S16x784 (![] : Fin 0 → Fin S16x784.rank)
  inb_S1000x1280_S1000x1280_0_0 : ∀ a, (![0, 0] : Fin 2 → Nat) a + S1000x1280.size a ≤ S1000x1280.size a
  h_S1000x1280 : 0 < S1000x1280.numel
  bitsLt_bf16_f32 : FTy.bits .bf16 < FTy.bits .f32
  inb_S784x1280_S784x1280_0_0 : ∀ a, (![0, 0] : Fin 2 → Nat) a + S784x1280.size a ≤ S784x1280.size a
  h_S784x1280 : 0 < S784x1280.numel
  inb_S10x1280_S10x1280_0_0 : ∀ a, (![0, 0] : Fin 2 → Nat) a + S10x1280.size a ≤ S10x1280.size a
  h_S10x1280 : 0 < S10x1280.numel
  iota_S784x1000_d1_w32 : S784x1000.Iotas .tc 32 [1]
  h_S1x784 : 0 < S1x784.numel
  shapeCasts_S1x784_S784 : S1x784.ShapeCasts S784
  shapeCasts_S784_S784x1 : S784.ShapeCasts S784x1
  broadcasts_S784x1_S784x1000 : S784x1.Broadcasts S784x1000
  natLt_1_32 : 1 < 32
  reduces_S784x1280_S1280 : S784x1280.Reduces [0] S1280
  h_S1x1280 : 0 < S1x1280.numel
  shapeCasts_S1x1280_S1280 : S1x1280.ShapeCasts S1280
  shapeCasts_S1280_S1x1280 : S1280.ShapeCasts S1x1280
  inb_S16x1280_S16x1280_0_0 : ∀ a, (![0, 0] : Fin 2 → Nat) a + S16x1280.size a ≤ S16x1280.size a
  h_S16x1280 : 0 < S16x1280.numel
  iota_S10x1280_d1_w32 : S10x1280.Iotas .tc 32 [1]
  transposes_S10x1280_p1_0_S1280x10 : S10x1280.Transposes [1, 0] S1280x10
  inb_S1x16x10_S1x16x10_0_0_0 : ∀ a, (![0, 0, 0] : Fin 3 → Nat) a + S1x16x10.size a ≤ S1x16x10.size a
  h_S1x16x10 : 0 < S1x16x10.numel
  shapeCasts_S1x16x10_S16x10 : S1x16x10.ShapeCasts S16x10
  shapeCasts_S16x10_S1x16x10 : S16x10.ShapeCasts S1x16x10
  reducesTo_S8x16x10_S16x10_d0 : S8x16x10.ReducesTo [0] S16x10
  h_S_ : 0 < S_.numel
  dot_S784x1000_S1000x1280_S784x1280_1_0_0_1_n_n_wf : DotDims.WF S784x1000 S1000x1280 S784x1280 [1] [0] [0] [1] [] []
  dot_S16x1280_S1280x10_S16x10_1_0_0_1_n_n_wf : DotDims.WF S16x1280 S1280x10 S16x10 [1] [0] [0] [1] [] []
  hrank0 : 0 < grid0.rank
  k0_t1_ok : k0_t1_loop.OK
  k0_off1_inb : ∀ k0_t1 : Fin k0_t1_loop.trips, ∀ a, (k0_off1 k0_t1) a + S1x784.size a ≤ S16x784.size a
  k0_off2_inb : ∀ k0_t1 : Fin k0_t1_loop.trips, ∀ a, (k0_off2 k0_t1) a + S1x1280.size a ≤ S16x1280.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x784.size a ≤ S16x784.size a
  hwx0_0 : ∀ i : grid0.Coords, EltTy.bits .i32 = 32 ∨ (Rect.block (s := S16x784) S16x784.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1000x1280.size a < S1000x10000.size a
  hwx0_1 : ∀ i : grid0.Coords, EltTy.bits .f32 = 32 ∨ (Rect.unit (s := S1000x10000) (fun a => cc0_transform_1 i a * S1000x1280.size a) (fun a => (Pipeline.Clip.of (cc0_transform_1 i a) (S1000x1280.size a) (S1000x10000.size a)).extent (S1000x1280.size a)) fun a => Pipeline.Clip.inb (Pipeline.Clip.ok_of (hstart0_1 i a))).WholeWords (EltTy.packing .f32)
  hwxs0_1 : ∀ i : grid0.Coords, EltTy.bits .f32 = 32 ∨ (Rect.unit (s := S1000x1280) (fun _ => 0) (fun a => (Pipeline.Clip.of (cc0_transform_1 i a) (S1000x1280.size a) (S1000x10000.size a)).extent (S1000x1280.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S784x1280.size a < S784x10000.size a
  hwx0_2 : ∀ i : grid0.Coords, EltTy.bits .f32 = 32 ∨ (Rect.unit (s := S784x10000) (fun a => cc0_transform_2 i a * S784x1280.size a) (fun a => (Pipeline.Clip.of (cc0_transform_2 i a) (S784x1280.size a) (S784x10000.size a)).extent (S784x1280.size a)) fun a => Pipeline.Clip.inb (Pipeline.Clip.ok_of (hstart0_2 i a))).WholeWords (EltTy.packing .f32)
  hwxs0_2 : ∀ i : grid0.Coords, EltTy.bits .f32 = 32 ∨ (Rect.unit (s := S784x1280) (fun _ => 0) (fun a => (Pipeline.Clip.of (cc0_transform_2 i a) (S784x1280.size a) (S784x10000.size a)).extent (S784x1280.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S10x1280.size a < S10x10000.size a
  hwx0_3 : ∀ i : grid0.Coords, EltTy.bits .f32 = 32 ∨ (Rect.unit (s := S10x10000) (fun a => cc0_transform_3 i a * S10x1280.size a) (fun a => (Pipeline.Clip.of (cc0_transform_3 i a) (S10x1280.size a) (S10x10000.size a)).extent (S10x1280.size a)) fun a => Pipeline.Clip.inb (Pipeline.Clip.ok_of (hstart0_3 i a))).WholeWords (EltTy.packing .f32)
  hwxs0_3 : ∀ i : grid0.Coords, EltTy.bits .f32 = 32 ∨ (Rect.unit (s := S10x1280) (fun _ => 0) (fun a => (Pipeline.Clip.of (cc0_transform_3 i a) (S10x1280.size a) (S10x10000.size a)).extent (S10x1280.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x10.size a ≤ S8x16x10.size a
  hwx0_4 : ∀ i : grid0.Coords, EltTy.bits .f32 = 32 ∨ (Rect.block (s := S8x16x10) S1x16x10.size (cc0_transform_4 i) (hinb0_4 i)).WholeWords (EltTy.packing .f32)

variable [Facts₀]

def dot_S784x1000_S1000x1280_S784x1280_1_0_0_1_n_n : DotDims S784x1000 S1000x1280 S784x1280 where
  lhsContracting := [1]
  rhsContracting := [0]
  lhsNonContracting := [0]
  rhsNonContracting := [1]
  lhsBatch := []
  rhsBatch := []
  wf := dot_S784x1000_S1000x1280_S784x1280_1_0_0_1_n_n_wf
def dot_S16x1280_S1280x10_S16x10_1_0_0_1_n_n : DotDims S16x1280 S1280x10 S16x10 where
  lhsContracting := [1]
  rhsContracting := [0]
  lhsNonContracting := [0]
  rhsNonContracting := [1]
  lhsBatch := []
  rhsBatch := []
  wf := dot_S16x1280_S1280x10_S16x10_1_0_0_1_n_n_wf

abbrev win0_0 : Pipeline.Window sig grid0 :=
  Pipeline.Window.ofSpec (Memref.whole main_v5) S16x784.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S1000x1280.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg1) S784x1280.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S10x1280.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v6) S1x16x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x28x28 : Shape := ⟨3, ![16, 28, 28]⟩
abbrev S784x10000 : Shape := ⟨2, ![784, 10000]⟩
abbrev S1000x10000 : Shape := ⟨2, ![1000, 10000]⟩
abbrev S10x10000 : Shape := ⟨2, ![10, 10000]⟩
abbrev S16x784 : Shape := ⟨2, ![16, 784]⟩
abbrev S_ : Shape := ⟨0, ![]⟩
abbrev S16x784x1 : Shape := ⟨3, ![16, 784, 1]⟩
abbrev S16x784x10000 : Shape := ⟨3, ![16, 784, 10000]⟩
abbrev S1x784x10000 : Shape := ⟨3, ![1, 784, 10000]⟩
abbrev S16x10000 : Shape := ⟨2, ![16, 10000]⟩
abbrev S10000x10 : Shape := ⟨2, ![10000, 10]⟩
abbrev S16x10 : Shape := ⟨2, ![16, 10]⟩

abbrev nBuf : Space → Nat
  | .hbm => 43
  | .vmem => 0
  | .smem => 0
  | _ => 0

abbrev bufTy : (tb : Table) → Fin (tcTables nBuf tb) → BufTy
  | .hbm, ⟨0, _⟩ => ⟨S16x28x28, .f32⟩
  | .hbm, ⟨1, _⟩ => ⟨S784x10000, .f32⟩
  | .hbm, ⟨2, _⟩ => ⟨S1000x10000, .f32⟩
  | .hbm, ⟨3, _⟩ => ⟨S10x10000, .f32⟩
  | .hbm, ⟨4, _⟩ => ⟨S16x784, .f32⟩
  | .hbm, ⟨5, _⟩ => ⟨S_, .f32⟩
  | .hbm, ⟨6, _⟩ => ⟨S16x784, .f32⟩
  | .hbm, ⟨7, _⟩ => ⟨S16x784, .f32⟩
  | .hbm, ⟨8, _⟩ => ⟨S16x784, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S16x784, .f32⟩
  | .hbm, ⟨13, _⟩ => ⟨S16x784, .f32⟩
  | .hbm, ⟨14, _⟩ => ⟨S_, .f32⟩
  | .hbm, ⟨15, _⟩ => ⟨S16x784, .f32⟩
  | .hbm, ⟨16, _⟩ => ⟨S16x784, .f32⟩
  | .hbm, ⟨17, _⟩ => ⟨S16x784, .i32⟩
  | .hbm, ⟨18, _⟩ => ⟨S_, .i32⟩
  | .hbm, ⟨19, _⟩ => ⟨S16x784, .i32⟩
  | .hbm, ⟨20, _⟩ => ⟨S16x784, .i1⟩
  | .hbm, ⟨21, _⟩ => ⟨S_, .i32⟩
  | .hbm, ⟨22, _⟩ => ⟨S16x784, .i32⟩
  | .hbm, ⟨23, _⟩ => ⟨S16x784, .i32⟩
  | .hbm, ⟨24, _⟩ => ⟨S16x784, .i32⟩
  | .hbm, ⟨25, _⟩ => ⟨S16x784x1, .i32⟩
  | .hbm, ⟨26, _⟩ => ⟨S16x784x10000, .f32⟩
  | .hbm, ⟨27, _⟩ => ⟨S1x784x10000, .f32⟩
  | .hbm, ⟨28, _⟩ => ⟨S16x784x10000, .f32⟩
  | .hbm, ⟨29, _⟩ => ⟨S16x784x10000, .f32⟩
  | .hbm, ⟨30, _⟩ => ⟨S_, .f32⟩
  | .hbm, ⟨31, _⟩ => ⟨S16x10000, .f32⟩
  | .hbm, ⟨32, _⟩ => ⟨S_, .f32⟩
  | .hbm, ⟨33, _⟩ => ⟨S16x10000, .f32⟩
  | .hbm, ⟨34, _⟩ => ⟨S16x10000, .i1⟩
  | .hbm, ⟨35, _⟩ => ⟨S_, .f32⟩
  | .hbm, ⟨36, _⟩ => ⟨S_, .f32⟩
  | .hbm, ⟨37, _⟩ => ⟨S16x10000, .f32⟩
  | .hbm, ⟨38, _⟩ => ⟨S16x10000, .f32⟩
  | .hbm, ⟨39, _⟩ => ⟨S16x10000, .f32⟩
  | .hbm, ⟨40, _⟩ => ⟨S16x10000, .f32⟩
  | .hbm, ⟨41, _⟩ => ⟨S10000x10, .f32⟩
  | .hbm, ⟨42, _⟩ => ⟨S16x10, .f32⟩
  | _, _ => ⟨S16x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_c_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_cst_6 : Ref sig .tc := ⟨.hbm, 36, rfl⟩
abbrev main_call2_v0 : Ref sig .tc := ⟨.hbm, 37, rfl⟩
abbrev main_call2_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]

class Facts₀ : Prop where
  shapeCasts_S16x28x28_S16x784 : S16x28x28.ShapeCasts S16x784
  bcast_S_S16x784 : S_.BroadcastsInDim S16x784 (![] : Fin 0 → Fin S16x784.rank)
  bcast_S16x784_S16x784x1_0_1 : S16x784.BroadcastsInDim S16x784x1 (![0, 1] : Fin 2 → Fin S16x784x1.rank)
  bcast_S784x10000_S1x784x10000_1_2 : S784x10000.BroadcastsInDim S1x784x10000 (![1, 2] : Fin 2 → Fin S1x784x10000.rank)
  bcast_S1x784x10000_S16x784x10000_0_1_2 : S1x784x10000.BroadcastsInDim S16x784x10000 (![0, 1, 2] : Fin 3 → Fin S16x784x10000.rank)
  reducesTo_S16x784x10000_S16x10000_d1 : S16x784x10000.ReducesTo [1] S16x10000
  h_S_ : 0 < S_.numel
  bcast_S_S16x10000 : S_.BroadcastsInDim S16x10000 (![] : Fin 0 → Fin S16x10000.rank)
  transposes_S10x10000_S10000x10_1_0 : S10x10000.Transposes [1, 0] S10000x10
  gather_S1000x10000_S16x784x1_S16x784x10000_2_0_n_n_0_2_110000_wf : GatherDims.WF S1000x10000 S16x784x1 S16x784x10000 [2] [0] [] [0] [] 2 ![1, 10000]
  dot_S16x10000_S10000x10_S16x10_1_0_0_1_n_n_wf : DotDims.WF S16x10000 S10000x10 S16x10 [1] [0] [0] [1] [] []

variable [Facts₀]

def gather_S1000x10000_S16x784x1_S16x784x10000_2_0_n_n_0_2_110000 : GatherDims S1000x10000 S16x784x1 S16x784x10000 where
  offsetDims := [2]
  collapsedSliceDims := [0]
  operandBatchingDims := []
  startIndicesBatchingDims := []
  startIndexMap := [0]
  indexVectorDim := 2
  sliceSizes := ![1, 10000]
  wf := gather_S1000x10000_S16x784x1_S16x784x10000_2_0_n_n_0_2_110000_wf
def dot_S16x10000_S10000x10_S16x10_1_0_0_1_n_n : DotDims S16x10000 S10000x10 S16x10 where
  lhsContracting := [1]
  rhsContracting := [0]
  lhsNonContracting := [0]
  rhsNonContracting := [1]
  lhsBatch := []
  rhsBatch := []
  wf := dot_S16x10000_S10000x10_S16x10_1_0_0_1_n_n_wf

class Facts : Prop extends Facts₀ where

variable [Facts]
-- ==== Proof.K.Run.lean ====
import proofs.«411585_j63075889709681_3_alg».proof.Proof.Gen.Kernel.Launch
import proofs.«411585_j63075889709681_3_alg».proof.Proof.Gen.Kernel.Skeleton
import proofs.«411585_j63075889709681_3_alg».proof.Proof.Gen.Kernel.Loops
import proofs.«411585_j63075889709681_3_alg».proof.Proof.Gen.Kernel.Points
import proofs.«411585_j63075889709681_3_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The kernel body on any whole staging memrefs

One call of the kernel function: three whole loads, sixteen trips that each load a row of level indices,
form the row's bundle over the tile's columns and store it into the scratch, then the whole scratch is
loaded, quantized, multiplied into the masked classify tile and the product stored whole into the output
block. The run below executes that text once over symbolic contents; the pieces the stores leave are the
witnesses it finds. -/

set_option maxHeartbeats 1000000 in
/-- What the body's stores leave in the output block's buffer (first component) and in the scratch (second),
    as pieces (last first), with the proof that on whole memrefs — the four inputs at their contents, the output
    at anything, the scratch at `x6` — the body runs to a continuation holding the inputs as they were and the
    output's and the scratch's buffers with those pieces written. -/
noncomputable def kernelRun (c : Dev nD) (i : grid0.Coords) (arg1 : Memref sig .tc .vmem S16x784 .i32) (harg1 : arg1.IsWhole) (arg2 : Memref sig .tc .vmem S1000x1280 .f32) (harg2 : arg2.IsWhole) (arg3 : Memref sig .tc .vmem S784x1280 .f32) (harg3 : arg3.IsWhole) (arg4 : Memref sig .tc .vmem S10x1280 .f32) (harg4 : arg4.IsWhole) (arg5 : Memref sig .tc .vmem S1x16x10 .f32) (harg5 : arg5.IsWhole) (arg6 : Memref sig .tc .vmem S16x1280 .f32) (harg6 : arg6.IsWhole)
    (x1 : Vec F S16x784 .i32) (x2 : Vec F S1000x1280 .f32) (x3 : Vec F S784x1280 .f32) (x4 : Vec F S10x1280 .f32) (x6 : Vec F S16x1280 .f32) :
    { L : List (View.Piece (Elt F) S1x16x10 .f32) × List (View.Piece (Elt F) S16x1280 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg6 fullShare x6
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__kernel i arg1 harg1 arg2 harg2 arg3 harg3 arg4 harg4 arg5 harg5 arg6 harg6) K } := by
  refine ⟨(?_, ?_), fun E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf1
    obtain rfl := harg2.eq_unread hf2
    obtain rfl := harg3.eq_unread hf3
    obtain rfl := harg4.eq_unread hf4
    obtain rfl := harg6.eq_unread hf6
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    · iexists _; iexact H6

end Cert.Kernel.Body

end
-- ==== Proof.K.FrameData.lean ====
import proofs.«411585_j63075889709681_3_alg».proof.Proof.K.Run
import proofs.«411585_j63075889709681_3_alg».proof.Proof.Gen.Kernel.Frame
import Idealize.ShloMosaic.Lib.Pipeline.Frame
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The proof data of the one pipeline, and the body at a grid point

Window 0 (the level indices, one block, fetched once) and the three weight windows are inputs; the weight
windows' last block overhangs the arrays by 240 columns, so after a fetch their buffers hold the array's columns
where those exist and unnamed words past them. Window 4 is the output: one `[1, 16, 10]` block per grid point.
The scratch is the class invariant's: any contents before the body, any after. -/

variable (m : (ℓ : Loc nD τ sig) → Buf (Elt F) ℓ) (ρ : Dev nD → PrngReg)

/-- Each window's current staging memref at point `t`, as the pipeline passes it, and its wholeness; the scratch. -/
abbrev ms0_0 (t : Fin cfg0.N) : Memref sig .tc .vmem S16x784 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S784x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x10 .f32 := win0_4.stage (cfg0.slots t 4)
abbrev hs0_4 (t : Fin cfg0.N) : (ms0_4 t).IsWhole := hstage0_4 ((cfg0.slots t 4).cast nbuf0_4)
abbrev scr : Memref sig .tc .vmem S16x1280 .f32 := Memref.whole cc0_scratch0

/-- The proof data on core `c`, for any naming `o` of what the output block's buffer holds after the body: the arrays as
    the region finds them; after the body the index block in place, each weight block in place on the columns inside
    its array (filled out with the zero word past them, which nothing reads), the output's buffer at `o c t`; the class
    invariant; nothing owed; full shares. -/
def dats (o : Dev nD → Fin cfg0.N → Vec F S1x16x10 .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => win0_3.fill (grid0.coords t) (fun _ => Scalar.ofBits .f32 0#32) (iblk m c 3 t)
    | ⟨4, _⟩ => o c t
  Φ _ := Pipeline.ΦA spec0 c
  q _ := fullShare
  owed _ := 0

variable (o : Dev nD → Fin cfg0.N → Vec F S1x16x10 .f32)

theorem A_eq (c : Dev nD) (w : Fin cfg0.W) : (dats m o 0 c).A w = V m c (Pipeline.arrRef spec0 w) := by
  dsimp only [dats]

theorem after0_0 (c : Dev nD) (t : Fin cfg0.N) : (dats m o 0 c).after 0 t = iblk m c 0 t := by dsimp only [dats]
theorem after0_1 (c : Dev nD) (t : Fin cfg0.N) :
    (dats m o 0 c).after 1 t = win0_1.fill (grid0.coords t) (fun _ => Scalar.ofBits .f32 0#32) (iblk m c 1 t) := by dsimp only [dats]
theorem after0_2 (c : Dev nD) (t : Fin cfg0.N) :
    (dats m o 0 c).after 2 t = win0_2.fill (grid0.coords t) (fun _ => Scalar.ofBits .f32 0#32) (iblk m c 2 t) := by dsimp only [dats]
theorem after0_3 (c : Dev nD) (t : Fin cfg0.N) :
    (dats m o 0 c).after 3 t = win0_3.fill (grid0.coords t) (fun _ => Scalar.ofBits .f32 0#32) (iblk m c 3 t) := by dsimp only [dats]
theorem after0_4 (c : Dev nD) (t : Fin cfg0.N) : (dats m o 0 c).after 4 t = o c t := by dsimp only [dats]

/-- The index block's buffer holds the block at every point, fetched there or not. -/
theorem before0_0 (c : Dev nD) (t : Fin cfg0.N) (d) : (dats m o 0 c).before 0 t d = iblk m c 0 t :=
  before0_0_of m (dats m o 0 c) (A_eq m o c 0) (after0_0 m o c) t d

/-- Each weight window is fetched at every point: its buffer holds the block on the columns inside the array and words
    nothing names (`d`) past them. -/
theorem before0_1 (c : Dev nD) (t : Fin cfg0.N) (d) :
    (dats m o 0 c).before 1 t d = win0_1.fill (grid0.coords t) d (iblk m c 1 t) := by
  unfold Dat.before; rw [if_pos (fetch0_1 t)]; rfl
theorem before0_2 (c : Dev nD) (t : Fin cfg0.N) (d) :
    (dats m o 0 c).before 2 t d = win0_2.fill (grid0.coords t) d (iblk m c 2 t) := by
  unfold Dat.before; rw [if_pos (fetch0_2 t)]; rfl
theorem before0_3 (c : Dev nD) (t : Fin cfg0.N) (d) :
    (dats m o 0 c).before 3 t d = win0_3.fill (grid0.coords t) d (iblk m c 3 t) := by
  unfold Dat.before; rw [if_pos (fetch0_3 t)]; rfl

/-- THE BODY AT A POINT, on the point's staging buffers: from the class invariant (whose scratch holds anything), the four
    input buffers at any contents and the output's at anything, the body runs, hands the inputs back as they were and the
    invariant back, and leaves the output's buffer with the run's piece written over what it held. -/
theorem body_run (c : Dev nD) (t : Fin cfg0.N) (X0 : Vec F S16x784 .i32) (X1 : Vec F S1000x1280 .f32) (X2 : Vec F S784x1280 .f32)
    (X3 : Vec F S10x1280 .f32) (K : PUnit → sProp 𝕄) :
    iprop((Pipeline.ΦA spec0 c : sProp 𝕄)
        ∗ owns (c : Thread nD τ) (ms0_0 t) fullShare X0 ∗ owns (c : Thread nD τ) (ms0_1 t) fullShare X1
        ∗ owns (c : Thread nD τ) (ms0_2 t) fullShare X2 ∗ owns (c : Thread nD τ) (ms0_3 t) fullShare X3
        ∗ (∃ d, owns (c : Thread nD τ) (ms0_4 t) fullShare d)
        ∗ (iprop((Pipeline.ΦA spec0 c : sProp 𝕄)
            ∗ owns (c : Thread nD τ) (ms0_0 t) fullShare X0 ∗ owns (c : Thread nD τ) (ms0_1 t) fullShare X1
            ∗ owns (c : Thread nD τ) (ms0_2 t) fullShare X2 ∗ owns (c : Thread nD τ) (ms0_3 t) fullShare X3
            ∗ (∃ (x6 : Vec F S16x1280 .f32) (f : BufTy.Contents (Elt F) (ms0_4 t).view.ty),
                (ms0_4 t).view.loc (c : Thread nD τ) ↦[(ms0_4 t).view.set]{fullShare}
                  (ms0_4 t).view.writes (Elt F) f
                    (kernelRun c (grid0.coords t) (ms0_0 t) (hs0_0 t) (ms0_1 t) (hs0_1 t) (ms0_2 t) (hs0_2 t) (ms0_3 t) (hs0_3 t)
                      (ms0_4 t) (hs0_4 t) scr (Memref.isWhole_whole _) X0 X1 X2 X3 x6).1.1)) -∗ K ⟨⟩))
      ⊢ wp frame (wpE (defs₀ (F := F)) Variants.none c none) Set.univ (bodyAt0 t) K := by
  unfold Pipeline.ΦA
  rw [scopedRest0_eq]
  iintro ⟨⟨⟨%f6, H6⟩, Hr⟩, H0, H1, H2, H3, H4, Hk⟩
  iapply ((kernelRun c (grid0.coords t) (ms0_0 t) (hs0_0 t) (ms0_1 t) (hs0_1 t) (ms0_2 t) (hs0_2 t) (ms0_3 t) (hs0_3 t)
    (ms0_4 t) (hs0_4 t) scr (Memref.isWhole_whole _) X0 X1 X2 X3 f6).2 Set.univ K)
  isplitl [H0]; · iexact H0
  isplitl [H1]; · iexact H1
  isplitl [H2]; · iexact H2
  isplitl [H3]; · iexact H3
  isplitl [H4]; · iexact H4
  isplitl [H6]
  · rw [owns_whole]; iexact H6
  iintro ⟨H0, H1, H2, H3, ⟨%f5, H5⟩, ⟨%f6', H6⟩⟩
  iapply Hk
  isplitl [H6 Hr]
  · isplitl [H6]
    · iexists (scr.view.read (Elt F) (scr.view.writes (Elt F) f6' _))
      rw [← owns_whole]
      iapply (owns_intro (c : Thread nD τ) scr fullShare _)
      iexact H6
    · iexact Hr
  isplitl [H0]; · iexact H0
  isplitl [H1]; · iexact H1
  isplitl [H2]; · iexact H2
  isplitl [H3]; · iexact H3
  iexists f6, f5; iexact H5

/-! ## The frame, saying nothing of what the output block holds

For the frame claim the output's contents do not matter: the obligation below hands the output window's buffer to the body
at anything and takes it back at anything, and the launch then says of the output array only that its blocks were
overwritten; the argument arrays come back as the region found them. -/

/-- The window the frame says nothing of: the output's. -/
abbrev fgt4 : Fin cfg0.W → Bool :=
  fun | 0 => false | 1 => false | 2 => false | 3 => false | 4 => true | ⟨_ + 5, h⟩ => absurd h (Nat.not_lt.2 (Nat.le_add_left _ _))

theorem body_obligation_fgt (c : Dev nD) :
    BodyObligationLoose (dats m o 0 c) (defs₀ (F := F)) Variants.none () Set.univ fgt4 := fun t => by
  rw [bigSep_W0, bigSep_W0]
  simp only
  rw [show (dats m o 0 c).Φ t.succ = (dats m o 0 c).Φ t.castSucc from rfl,
    show (dats m o 0 c).owesAt () t.succ = (dats m o 0 c).owesAt () t.castSucc from rfl,
    show (dats m o 0 c).Φ t.castSucc = (Pipeline.ΦA spec0 c : sProp 𝕄) from rfl]
  iintro ⟨HΦ, Ho, ⟨%d0, H0⟩, ⟨%d1, H1⟩, ⟨%d2, H2⟩, ⟨%d3, H3⟩, ⟨%X4, H4⟩⟩
  rw [before0_0 m o c t d0, before0_1 m o c t d1, before0_2 m o c t d2, before0_3 m o c t d3]
  have h1 : win0_1.cut (grid0.coords t) ((dats m o 0 c).after 1 t) = iblk m c 1 t := by
    rw [after0_1]; exact win0_1.cut_fill _ _ _
  have h2 : win0_2.cut (grid0.coords t) ((dats m o 0 c).after 2 t) = iblk m c 2 t := by
    rw [after0_2]; exact win0_2.cut_fill _ _ _
  have h3 : win0_3.cut (grid0.coords t) ((dats m o 0 c).after 3 t) = iblk m c 3 t := by
    rw [after0_3]; exact win0_3.cut_fill _ _ _
  iapply (body_run (F := F) c t (iblk m c 0 t) (win0_1.fill (grid0.coords t) d1 (iblk m c 1 t))
    (win0_2.fill (grid0.coords t) d2 (iblk m c 2 t)) (win0_3.fill (grid0.coords t) d3 (iblk m c 3 t)) _)
  isplitl [HΦ]; · iexact HΦ
  isplitl [H0]; · iexact H0
  isplitl [H1]; · iexact H1
  isplitl [H2]; · iexact H2
  isplitl [H3]; · iexact H3
  isplitl [H4]; · iexists X4; iexact H4
  iintro ⟨HΦ, H0, H1, H2, H3, ⟨%x6, %f5, H5⟩⟩
  isplitl [HΦ]; · iexact HΦ
  isplitl [Ho]; · iexact Ho
  isplitl [H0]
  · rw [after0_0]; iexact H0
  isplitl [H1]
  · iexists d1
    change _ ⊢ owns (c : Thread nD τ) (ms0_1 t) fullShare (win0_1.fill (grid0.coords t) d1 (win0_1.cut (grid0.coords t) ((dats m o 0 c).after 1 t)))
    rw [h1]; try iexact H1
  isplitl [H2]
  · iexists d2
    change _ ⊢ owns (c : Thread nD τ) (ms0_2 t) fullShare (win0_2.fill (grid0.coords t) d2 (win0_2.cut (grid0.coords t) ((dats m o 0 c).after 2 t)))
    rw [h2]; try iexact H2
  isplitl [H3]
  · iexists d3
    change _ ⊢ owns (c : Thread nD τ) (ms0_3 t) fullShare (win0_3.fill (grid0.coords t) d3 (win0_3.cut (grid0.coords t) ((dats m o 0 c).after 3 t)))
    rw [h3]; try iexact H3
  · iexists _
    iapply (owns_intro (c : Thread nD τ) (ms0_4 t) fullShare _)
    iexact H5

/-- The buffers the host lines after the region write: the zero constant and the result. -/
abbrev tailW : Finset (Ref sig .tc) := {main_cst_1, main_v7}

theorem tail_writes : ∀ ops ∈ ([hostOps1] : List (List (HloOp τ sig (Elt F)))), ∀ op ∈ ops, ∀ b : Ref sig .tc,
    Proc.devRef .tc b ∈ op.writes → b ∈ tailW := by
  intro ops hops op hop b hb
  simp only [List.mem_cons, List.mem_nil_iff, or_false] at hops
  rcases hops with rfl
  simp only [hostOps1, List.mem_cons, List.mem_nil_iff, or_false] at hop
  rcases hop with rfl | rfl
  · simp only [StableHlo.nullary_writes, Finset.mem_singleton] at hb
    have := Proc.devRef_injective (τ := τ) _ hb
    subst this; simp [tailW]
  · simp only [StableHlo.binary_writes, Finset.mem_singleton] at hb
    have := Proc.devRef_injective (τ := τ) _ hb
    subst this; simp [tailW]

set_option backward.isDefEq.respectTransparency.types false in
/-- At the compiled mesh, for any values, from any memory with zero counters: every weakly fair execution of @main
    terminates, the argument arrays and every buffer the region bypasses and the later host lines do not write end as
    the region found them. -/
theorem run_fgt : θ_run defs (onTc (τ := τ) (main (F := F))) (s₀ m ρ)
    (Pipeline.RDat.FramePostR cfg0 (fun c => (dats m o 0 c).toRForget fgt4) tailW (fun c b => V0 m c (Proc.devRef .tc b))) :=
  Pipeline.RDat.θ_run_frame_around_T cfgs (0 : Fin 1) launch0 defs₀ Variants.none (fun c => (dats m o 0 c).toRForget fgt4) tailW m ρ main
    (hbody := fun c => (body_obligation_fgt m o c).toRForget)
    (hshare := fun c w => (dats m o 0 c).share_full (fun _ => rfl) w) (howed := fun _ _ => rfl)
    (V₀ := V0 m) (opss := [hostOps1]) (hsub := sfx_sub) (hfresh := sfx_fresh) (hkeep := sfx_keeps) (hT := tail_writes)
    (hmain := hmain m Variants.none) (hA := fun c w => A_eq m o c w) (hΦ := fun _ _ => rfl)

/-- A naming of the output block for the frame, which says nothing of it: the zero block. -/
abbrev o₀ : Dev nD → Fin cfg0.N → Vec F S1x16x10 .f32 := fun _ _ _ => Scalar.ofBits .f32 0#32

/-- THE FRAME: @main runs, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_arg0 (Finset.mem_sdiff.mpr ⟨Pipeline.mem_restRefs_of main_arg0 (by decide) (by decide), by decide⟩)).trans (V_main_arg0 m c),
      (h.arr_in c 2 rfl).trans ((A_eq m o₀ c 2).trans (V_main_arg1 m c)),
      (h.arr_in c 1 rfl).trans ((A_eq m o₀ c 1).trans (V_main_arg2 m c)),
      (h.arr_in c 3 rfl).trans ((A_eq m o₀ c 3).trans (V_main_arg3 m c))⟩) (run_fgt m ρ o₀)

end Cert.Kernel.Body

end
-- ==== Proof.KI.Run.lean ====
import proofs.«411585_j63075889709681_3_alg».proof.Proof.Gen.KernelIdeal.Launch
import proofs.«411585_j63075889709681_3_alg».proof.Proof.Gen.KernelIdeal.Skeleton
import proofs.«411585_j63075889709681_3_alg».proof.Proof.Gen.KernelIdeal.Loops
import proofs.«411585_j63075889709681_3_alg».proof.Proof.Gen.KernelIdeal.Points
import proofs.«411585_j63075889709681_3_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The kernel body on any whole staging memrefs

One call of the kernel function: three whole loads, sixteen trips that each load a row of level indices,
form the row's bundle over the tile's columns and store it into the scratch, then the whole scratch is
loaded, quantized, multiplied into the masked classify tile and the product stored whole into the output
block. The run below executes that text once over symbolic contents; the pieces the stores leave are the
witnesses it finds. -/

set_option maxHeartbeats 1000000 in
/-- What the body's stores leave in the output block's buffer (first component) and in the scratch (second),
    as pieces (last first), with the proof that on whole memrefs — the four inputs at their contents, the output
    at anything, the scratch at `x6` — the body runs to a continuation holding the inputs as they were and the
    output's and the scratch's buffers with those pieces written. -/
noncomputable def kernelRun (c : Dev nD) (i : grid0.Coords) (arg1 : Memref sig .tc .vmem S16x784 .i32) (harg1 : arg1.IsWhole) (arg2 : Memref sig .tc .vmem S1000x1280 .f32) (harg2 : arg2.IsWhole) (arg3 : Memref sig .tc .vmem S784x1280 .f32) (harg3 : arg3.IsWhole) (arg4 : Memref sig .tc .vmem S10x1280 .f32) (harg4 : arg4.IsWhole) (arg5 : Memref sig .tc .vmem S1x16x10 .f32) (harg5 : arg5.IsWhole) (arg6 : Memref sig .tc .vmem S16x1280 .f32) (harg6 : arg6.IsWhole)
    (x1 : Vec F S16x784 .i32) (x2 : Vec F S1000x1280 .f32) (x3 : Vec F S784x1280 .f32) (x4 : Vec F S10x1280 .f32) (x6 : Vec F S16x1280 .f32) :
    { L : List (View.Piece (Elt F) S1x16x10 .f32) × List (View.Piece (Elt F) S16x1280 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg6 fullShare x6
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__kernel i arg1 harg1 arg2 harg2 arg3 harg3 arg4 harg4 arg5 harg5 arg6 harg6) K } := by
  refine ⟨(?_, ?_), fun E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf1
    obtain rfl := harg2.eq_unread hf2
    obtain rfl := harg3.eq_unread hf3
    obtain rfl := harg4.eq_unread hf4
    obtain rfl := harg6.eq_unread hf6
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    · iexists _; iexact H6

end Cert.KernelIdeal.Body

end
-- ==== Proof.KI.FrameData.lean ====
import proofs.«411585_j63075889709681_3_alg».proof.Proof.KI.Run
import proofs.«411585_j63075889709681_3_alg».proof.Proof.Gen.KernelIdeal.Frame
import Idealize.ShloMosaic.Lib.Pipeline.Frame
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The proof data of the one pipeline, and the body at a grid point

Window 0 (the level indices, one block, fetched once) and the three weight windows are inputs; the weight
windows' last block overhangs the arrays by 240 columns, so after a fetch their buffers hold the array's columns
where those exist and unnamed words past them. Window 4 is the output: one `[1, 16, 10]` block per grid point.
The scratch is the class invariant's: any contents before the body, any after. -/

variable (m : (ℓ : Loc nD τ sig) → Buf (Elt F) ℓ) (ρ : Dev nD → PrngReg)

/-- Each window's current staging memref at point `t`, as the pipeline passes it, and its wholeness; the scratch. -/
abbrev ms0_0 (t : Fin cfg0.N) : Memref sig .tc .vmem S16x784 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S784x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x10 .f32 := win0_4.stage (cfg0.slots t 4)
abbrev hs0_4 (t : Fin cfg0.N) : (ms0_4 t).IsWhole := hstage0_4 ((cfg0.slots t 4).cast nbuf0_4)
abbrev scr : Memref sig .tc .vmem S16x1280 .f32 := Memref.whole cc0_scratch0

/-- The proof data on core `c`, for any naming `o` of what the output block's buffer holds after the body: the arrays as
    the region finds them; after the body the index block in place, each weight block in place on the columns inside
    its array (filled out with the zero word past them, which nothing reads), the output's buffer at `o c t`; the class
    invariant; nothing owed; full shares. -/
def dats (o : Dev nD → Fin cfg0.N → Vec F S1x16x10 .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => win0_3.fill (grid0.coords t) (fun _ => Scalar.ofBits .f32 0#32) (iblk m c 3 t)
    | ⟨4, _⟩ => o c t
  Φ _ := Pipeline.ΦA spec0 c
  q _ := fullShare
  owed _ := 0

variable (o : Dev nD → Fin cfg0.N → Vec F S1x16x10 .f32)

theorem A_eq (c : Dev nD) (w : Fin cfg0.W) : (dats m o 0 c).A w = V m c (Pipeline.arrRef spec0 w) := by
  dsimp only [dats]

theorem after0_0 (c : Dev nD) (t : Fin cfg0.N) : (dats m o 0 c).after 0 t = iblk m c 0 t := by dsimp only [dats]
theorem after0_1 (c : Dev nD) (t : Fin cfg0.N) :
    (dats m o 0 c).after 1 t = win0_1.fill (grid0.coords t) (fun _ => Scalar.ofBits .f32 0#32) (iblk m c 1 t) := by dsimp only [dats]
theorem after0_2 (c : Dev nD) (t : Fin cfg0.N) :
    (dats m o 0 c).after 2 t = win0_2.fill (grid0.coords t) (fun _ => Scalar.ofBits .f32 0#32) (iblk m c 2 t) := by dsimp only [dats]
theorem after0_3 (c : Dev nD) (t : Fin cfg0.N) :
    (dats m o 0 c).after 3 t = win0_3.fill (grid0.coords t) (fun _ => Scalar.ofBits .f32 0#32) (iblk m c 3 t) := by dsimp only [dats]
theorem after0_4 (c : Dev nD) (t : Fin cfg0.N) : (dats m o 0 c).after 4 t = o c t := by dsimp only [dats]

/-- The index block's buffer holds the block at every point, fetched there or not. -/
theorem before0_0 (c : Dev nD) (t : Fin cfg0.N) (d) : (dats m o 0 c).before 0 t d = iblk m c 0 t :=
  before0_0_of m (dats m o 0 c) (A_eq m o c 0) (after0_0 m o c) t d

/-- Each weight window is fetched at every point: its buffer holds the block on the columns inside the array and words
    nothing names (`d`) past them. -/
theorem before0_1 (c : Dev nD) (t : Fin cfg0.N) (d) :
    (dats m o 0 c).before 1 t d = win0_1.fill (grid0.coords t) d (iblk m c 1 t) := by
  unfold Dat.before; rw [if_pos (fetch0_1 t)]; rfl
theorem before0_2 (c : Dev nD) (t : Fin cfg0.N) (d) :
    (dats m o 0 c).before 2 t d = win0_2.fill (grid0.coords t) d (iblk m c 2 t) := by
  unfold Dat.before; rw [if_pos (fetch0_2 t)]; rfl
theorem before0_3 (c : Dev nD) (t : Fin cfg0.N) (d) :
    (dats m o 0 c).before 3 t d = win0_3.fill (grid0.coords t) d (iblk m c 3 t) := by
  unfold Dat.before; rw [if_pos (fetch0_3 t)]; rfl

/-- THE BODY AT A POINT, on the point's staging buffers: from the class invariant (whose scratch holds anything), the four
    input buffers at any contents and the output's at anything, the body runs, hands the inputs back as they were and the
    invariant back, and leaves the output's buffer with the run's piece written over what it held. -/
theorem body_run (c : Dev nD) (t : Fin cfg0.N) (X0 : Vec F S16x784 .i32) (X1 : Vec F S1000x1280 .f32) (X2 : Vec F S784x1280 .f32)
    (X3 : Vec F S10x1280 .f32) (K : PUnit → sProp 𝕄) :
    iprop((Pipeline.ΦA spec0 c : sProp 𝕄)
        ∗ owns (c : Thread nD τ) (ms0_0 t) fullShare X0 ∗ owns (c : Thread nD τ) (ms0_1 t) fullShare X1
        ∗ owns (c : Thread nD τ) (ms0_2 t) fullShare X2 ∗ owns (c : Thread nD τ) (ms0_3 t) fullShare X3
        ∗ (∃ d, owns (c : Thread nD τ) (ms0_4 t) fullShare d)
        ∗ (iprop((Pipeline.ΦA spec0 c : sProp 𝕄)
            ∗ owns (c : Thread nD τ) (ms0_0 t) fullShare X0 ∗ owns (c : Thread nD τ) (ms0_1 t) fullShare X1
            ∗ owns (c : Thread nD τ) (ms0_2 t) fullShare X2 ∗ owns (c : Thread nD τ) (ms0_3 t) fullShare X3
            ∗ (∃ (x6 : Vec F S16x1280 .f32) (f : BufTy.Contents (Elt F) (ms0_4 t).view.ty),
                (ms0_4 t).view.loc (c : Thread nD τ) ↦[(ms0_4 t).view.set]{fullShare}
                  (ms0_4 t).view.writes (Elt F) f
                    (kernelRun c (grid0.coords t) (ms0_0 t) (hs0_0 t) (ms0_1 t) (hs0_1 t) (ms0_2 t) (hs0_2 t) (ms0_3 t) (hs0_3 t)
                      (ms0_4 t) (hs0_4 t) scr (Memref.isWhole_whole _) X0 X1 X2 X3 x6).1.1)) -∗ K ⟨⟩))
      ⊢ wp frame (wpE (defs₀ (F := F)) Variants.none c none) Set.univ (bodyAt0 t) K := by
  unfold Pipeline.ΦA
  rw [scopedRest0_eq]
  iintro ⟨⟨⟨%f6, H6⟩, Hr⟩, H0, H1, H2, H3, H4, Hk⟩
  iapply ((kernelRun c (grid0.coords t) (ms0_0 t) (hs0_0 t) (ms0_1 t) (hs0_1 t) (ms0_2 t) (hs0_2 t) (ms0_3 t) (hs0_3 t)
    (ms0_4 t) (hs0_4 t) scr (Memref.isWhole_whole _) X0 X1 X2 X3 f6).2 Set.univ K)
  isplitl [H0]; · iexact H0
  isplitl [H1]; · iexact H1
  isplitl [H2]; · iexact H2
  isplitl [H3]; · iexact H3
  isplitl [H4]; · iexact H4
  isplitl [H6]
  · rw [owns_whole]; iexact H6
  iintro ⟨H0, H1, H2, H3, ⟨%f5, H5⟩, ⟨%f6', H6⟩⟩
  iapply Hk
  isplitl [H6 Hr]
  · isplitl [H6]
    · iexists (scr.view.read (Elt F) (scr.view.writes (Elt F) f6' _))
      rw [← owns_whole]
      iapply (owns_intro (c : Thread nD τ) scr fullShare _)
      iexact H6
    · iexact Hr
  isplitl [H0]; · iexact H0
  isplitl [H1]; · iexact H1
  isplitl [H2]; · iexact H2
  isplitl [H3]; · iexact H3
  iexists f6, f5; iexact H5

/-! ## The frame, saying nothing of what the output block holds

For the frame claim the output's contents do not matter: the obligation below hands the output window's buffer to the body
at anything and takes it back at anything, and the launch then says of the output array only that its blocks were
overwritten; the argument arrays come back as the region found them. -/

/-- The window the frame says nothing of: the output's. -/
abbrev fgt4 : Fin cfg0.W → Bool :=
  fun | 0 => false | 1 => false | 2 => false | 3 => false | 4 => true | ⟨_ + 5, h⟩ => absurd h (Nat.not_lt.2 (Nat.le_add_left _ _))

theorem body_obligation_fgt (c : Dev nD) :
    BodyObligationLoose (dats m o 0 c) (defs₀ (F := F)) Variants.none () Set.univ fgt4 := fun t => by
  rw [bigSep_W0, bigSep_W0]
  simp only
  rw [show (dats m o 0 c).Φ t.succ = (dats m o 0 c).Φ t.castSucc from rfl,
    show (dats m o 0 c).owesAt () t.succ = (dats m o 0 c).owesAt () t.castSucc from rfl,
    show (dats m o 0 c).Φ t.castSucc = (Pipeline.ΦA spec0 c : sProp 𝕄) from rfl]
  iintro ⟨HΦ, Ho, ⟨%d0, H0⟩, ⟨%d1, H1⟩, ⟨%d2, H2⟩, ⟨%d3, H3⟩, ⟨%X4, H4⟩⟩
  rw [before0_0 m o c t d0, before0_1 m o c t d1, before0_2 m o c t d2, before0_3 m o c t d3]
  have h1 : win0_1.cut (grid0.coords t) ((dats m o 0 c).after 1 t) = iblk m c 1 t := by
    rw [after0_1]; exact win0_1.cut_fill _ _ _
  have h2 : win0_2.cut (grid0.coords t) ((dats m o 0 c).after 2 t) = iblk m c 2 t := by
    rw [after0_2]; exact win0_2.cut_fill _ _ _
  have h3 : win0_3.cut (grid0.coords t) ((dats m o 0 c).after 3 t) = iblk m c 3 t := by
    rw [after0_3]; exact win0_3.cut_fill _ _ _
  iapply (body_run (F := F) c t (iblk m c 0 t) (win0_1.fill (grid0.coords t) d1 (iblk m c 1 t))
    (win0_2.fill (grid0.coords t) d2 (iblk m c 2 t)) (win0_3.fill (grid0.coords t) d3 (iblk m c 3 t)) _)
  isplitl [HΦ]; · iexact HΦ
  isplitl [H0]; · iexact H0
  isplitl [H1]; · iexact H1
  isplitl [H2]; · iexact H2
  isplitl [H3]; · iexact H3
  isplitl [H4]; · iexists X4; iexact H4
  iintro ⟨HΦ, H0, H1, H2, H3, ⟨%x6, %f5, H5⟩⟩
  isplitl [HΦ]; · iexact HΦ
  isplitl [Ho]; · iexact Ho
  isplitl [H0]
  · rw [after0_0]; iexact H0
  isplitl [H1]
  · iexists d1
    change _ ⊢ owns (c : Thread nD τ) (ms0_1 t) fullShare (win0_1.fill (grid0.coords t) d1 (win0_1.cut (grid0.coords t) ((dats m o 0 c).after 1 t)))
    rw [h1]; try iexact H1
  isplitl [H2]
  · iexists d2
    change _ ⊢ owns (c : Thread nD τ) (ms0_2 t) fullShare (win0_2.fill (grid0.coords t) d2 (win0_2.cut (grid0.coords t) ((dats m o 0 c).after 2 t)))
    rw [h2]; try iexact H2
  isplitl [H3]
  · iexists d3
    change _ ⊢ owns (c : Thread nD τ) (ms0_3 t) fullShare (win0_3.fill (grid0.coords t) d3 (win0_3.cut (grid0.coords t) ((dats m o 0 c).after 3 t)))
    rw [h3]; try iexact H3
  · iexists _
    iapply (owns_intro (c : Thread nD τ) (ms0_4 t) fullShare _)
    iexact H5

/-- The buffers the host lines after the region write: the zero constant and the result. -/
abbrev tailW : Finset (Ref sig .tc) := {main_cst_1, main_v7}

theorem tail_writes : ∀ ops ∈ ([hostOps1] : List (List (HloOp τ sig (Elt F)))), ∀ op ∈ ops, ∀ b : Ref sig .tc,
    Proc.devRef .tc b ∈ op.writes → b ∈ tailW := by
  intro ops hops op hop b hb
  simp only [List.mem_cons, List.mem_nil_iff, or_false] at hops
  rcases hops with rfl
  simp only [hostOps1, List.mem_cons, List.mem_nil_iff, or_false] at hop
  rcases hop with rfl | rfl
  · simp only [StableHlo.nullary_writes, Finset.mem_singleton] at hb
    have := Proc.devRef_injective (τ := τ) _ hb
    subst this; simp [tailW]
  · simp only [StableHlo.binary_writes, Finset.mem_singleton] at hb
    have := Proc.devRef_injective (τ := τ) _ hb
    subst this; simp [tailW]

set_option backward.isDefEq.respectTransparency.types false in
/-- At the compiled mesh, for any values, from any memory with zero counters: every weakly fair execution of @main
    terminates, the argument arrays and every buffer the region bypasses and the later host lines do not write end as
    the region found them. -/
theorem run_fgt : θ_run defs (onTc (τ := τ) (main (F := F))) (s₀ m ρ)
    (Pipeline.RDat.FramePostR cfg0 (fun c => (dats m o 0 c).toRForget fgt4) tailW (fun c b => V0 m c (Proc.devRef .tc b))) :=
  Pipeline.RDat.θ_run_frame_around_T cfgs (0 : Fin 1) launch0 defs₀ Variants.none (fun c => (dats m o 0 c).toRForget fgt4) tailW m ρ main
    (hbody := fun c => (body_obligation_fgt m o c).toRForget)
    (hshare := fun c w => (dats m o 0 c).share_full (fun _ => rfl) w) (howed := fun _ _ => rfl)
    (V₀ := V0 m) (opss := [hostOps1]) (hsub := sfx_sub) (hfresh := sfx_fresh) (hkeep := sfx_keeps) (hT := tail_writes)
    (hmain := hmain m Variants.none) (hA := fun c w => A_eq m o c w) (hΦ := fun _ _ => rfl)

/-- A naming of the output block for the frame, which says nothing of it: the zero block. -/
abbrev o₀ : Dev nD → Fin cfg0.N → Vec F S1x16x10 .f32 := fun _ _ _ => Scalar.ofBits .f32 0#32

/-- THE FRAME: @main runs, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_arg0 (Finset.mem_sdiff.mpr ⟨Pipeline.mem_restRefs_of main_arg0 (by decide) (by decide), by decide⟩)).trans (V_main_arg0 m c),
      (h.arr_in c 2 rfl).trans ((A_eq m o₀ c 2).trans (V_main_arg1 m c)),
      (h.arr_in c 1 rfl).trans ((A_eq m o₀ c 1).trans (V_main_arg2 m c)),
      (h.arr_in c 3 rfl).trans ((A_eq m o₀ c 3).trans (V_main_arg3 m c))⟩) (run_fgt m ρ o₀)

end Cert.KernelIdeal.Body

end
-- ==== Proof.KI.Pieces.lean ====
import proofs.«411585_j63075889709681_3_alg».proof.Proof.KI.Run
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-! ## What the sixteen trips leave in the scratch, and what the output block then holds

Trip `k` stores one row: row `k` of the scratch becomes the bundle computed from row `k` of the level
indices and the two weight tiles. The sixteen rows tile the scratch, so after the loop the scratch reads as
ONE function of its index, whatever it held before; the output block is the classify product of that. -/

/-- The loop runs sixteen trips. -/
theorem trips_eq : k0_t1_loop.trips = 16 := by decide +kernel

theorem zero2 : (![0, 0] : Fin 2 → Nat) = fun _ => 0 := funext fun a => by fin_cases a <;> rfl
theorem zero3 : (![0, 0, 0] : Fin 3 → Nat) = fun _ => 0 := funext fun a => by fin_cases a <;> rfl

/-- A load of a whole memref through the whole-shape rectangle reads what the memref holds. -/
theorem readAt_unread_whole {S : Shape} {e : EltTy} (M : Memref sig .tc .vmem S e) (h : M.IsWhole) (X : S.Idx → Elt F e)
    {off : Fin S.rank → Nat} (hz : off = fun _ => 0) (inb : ∀ a, off a + S.size a ≤ S.size a) :
    View.readAt (Elt F) M.view (Rect.unit off S.size inb).toLoadRect (h.unread X) = X := by
  rw [View.readAt_eq_ld, h.read_unread, View.ld_unit_zero hz]

/-- The trip that writes row `y 0` of the scratch. -/
def rowTrip (y : S16x1280.Idx) : Fin k0_t1_loop.trips := ⟨(y 0).val, by rw [trips_eq]; exact idx2_lt0 y⟩

section Trips

variable (c : Dev nD) (i : grid0.Coords) (arg1 : Memref sig .tc .vmem S16x784 .i32) (harg1 : arg1.IsWhole) (arg2 : Memref sig .tc .vmem S1000x1280 .f32) (harg2 : arg2.IsWhole) (arg3 : Memref sig .tc .vmem S784x1280 .f32) (harg3 : arg3.IsWhole) (arg4 : Memref sig .tc .vmem S10x1280 .f32) (harg4 : arg4.IsWhole) (arg5 : Memref sig .tc .vmem S1x16x10 .f32) (harg5 : arg5.IsWhole) (arg6 : Memref sig .tc .vmem S16x1280 .f32) (harg6 : arg6.IsWhole)
  (v0 : Vec F S1000x1280 .f32) (v2 : Vec F S784x1280 .f32) (X1 : BufTy.Contents (Elt F) arg1.view.ty)

/-- The bundle of the row of level indices that trip `k` loads: what the trip stores. -/
def rowPay (k : Fin k0_t1_loop.trips) : S1x1280.Idx → Elt F .f32 :=
  k0_pay1 v0 v2 (View.readAt (Elt F) arg1.view (Rect.unit (s := S16x784) (k0_off1 k) S1x784.size (k0_off1_inb k)).toLoadRect X1)

/-- The one store of trip `k`: row `k` of the scratch. -/
abbrev tripPiece (k : Fin k0_t1_loop.trips) : View.Piece (Elt F) S16x1280 .f32 :=
  ⟨Rect.unit (s := S16x1280) (k0_off2 k) S1x1280.size (k0_off2_inb k), rowPay arg1 v0 v2 X1 k⟩

/-- The trip's piece list is that one piece (the trip's definition opened once, here). -/
theorem tripL_eq (k : Fin k0_t1_loop.trips) :
    tripL_k0_t1 (F := F) Variants.none c none i arg1 harg1 arg2 harg2 arg3 harg3 arg4 harg4 arg5 harg5 arg6 harg6 v0 v2 X1 k
      = [tripPiece arg1 v0 v2 X1 k] := by
  unfold tripL_k0_t1 trip_k0_t1
  rfl

/-- The pieces of the trips before `k`. -/
abbrev PB (k : ℕ) : List (View.Piece (Elt F) S16x1280 .f32) :=
  pb_k0_t1 (F := F) Variants.none c none i arg1 harg1 arg2 harg2 arg3 harg3 arg4 harg4 arg5 harg5 arg6 harg6 v0 v2 X1 k

theorem PB_succ (k : Fin k0_t1_loop.trips) :
    PB c i arg1 harg1 arg2 harg2 arg3 harg3 arg4 harg4 arg5 harg5 arg6 harg6 v0 v2 X1 (k.val + 1) = tripPiece arg1 v0 v2 X1 k :: PB c i arg1 harg1 arg2 harg2 arg3 harg3 arg4 harg4 arg5 harg5 arg6 harg6 v0 v2 X1 k.val := by
  unfold PB
  rw [pb_k0_t1_succ, tripL_eq]; rfl

/-- Every piece of the trips before `k` is some earlier trip's piece; -/
theorem mem_PB : ∀ (k : ℕ), k ≤ k0_t1_loop.trips → ∀ p ∈ PB c i arg1 harg1 arg2 harg2 arg3 harg3 arg4 harg4 arg5 harg5 arg6 harg6 v0 v2 X1 k,
    ∃ k' : Fin k0_t1_loop.trips, k'.val < k ∧ p = tripPiece arg1 v0 v2 X1 k'
  | 0, _, p, hp => by simp [PB, pb_k0_t1] at hp
  | k + 1, hk, p, hp => by
    rw [PB_succ c i arg1 harg1 arg2 harg2 arg3 harg3 arg4 harg4 arg5 harg5 arg6 harg6 v0 v2 X1 ⟨k, hk⟩] at hp
    rcases List.mem_cons.mp hp with rfl | hp
    · exact ⟨⟨k, hk⟩, Nat.lt_succ_self k, rfl⟩
    · obtain ⟨k', h1, h2⟩ := mem_PB k (Nat.le_of_succ_le hk) p hp
      exact ⟨k', Nat.lt_succ_of_lt h1, h2⟩

/-- and every earlier trip's piece is among them. -/
theorem tripPiece_mem_PB (k' : Fin k0_t1_loop.trips) : ∀ (k : ℕ), k ≤ k0_t1_loop.trips → k'.val < k →
    tripPiece arg1 v0 v2 X1 k' ∈ PB c i arg1 harg1 arg2 harg2 arg3 harg3 arg4 harg4 arg5 harg5 arg6 harg6 v0 v2 X1 k
  | 0, _, h => absurd h (Nat.not_lt_zero _)
  | k + 1, hk, h => by
    rw [PB_succ c i arg1 harg1 arg2 harg2 arg3 harg3 arg4 harg4 arg5 harg5 arg6 harg6 v0 v2 X1 ⟨k, hk⟩]
    rcases Nat.lt_succ_iff_lt_or_eq.mp h with h | h
    · exact List.mem_cons_of_mem _ (tripPiece_mem_PB k' k (Nat.le_of_succ_le hk) h)
    · have : k' = ⟨k, hk⟩ := Fin.ext h
      rw [this]; exact List.mem_cons_self

/-- The scratch after the loop as one function of its index: entry `(b, j)` is entry `j` of the bundle of row `b`. -/
def scrOf (y : S16x1280.Idx) : Elt F .f32 :=
  rowPay arg1 v0 v2 X1 (rowTrip y) (ix2 (0 : Fin 1) (⟨(y 1).val, idx2_lt1 y⟩ : Fin 1280))

/-- Each trip's payload is that function's row. -/
theorem tripPiece_eq (k : Fin k0_t1_loop.trips)
    (x : (Rect.unit (s := S16x1280) (k0_off2 k) S1x1280.size (k0_off2_inb k)).shape.Idx) :
    rowPay arg1 v0 v2 X1 k x
      = scrOf arg1 v0 v2 X1 ((Rect.unit (s := S16x1280) (k0_off2 k) S1x1280.size (k0_off2_inb k)).emb x) := by
  have hx0 : (x 0).val = 0 := by have := (x 0).isLt; change (x 0).val < 1 at this; omega
  have e0 : k0_off2 k 0 = k.val := by rw [k0_off2_eq]; rfl
  have e1 : k0_off2 k 1 = 0 := by rw [k0_off2_eq]; rfl
  have h0 : (((Rect.unit (s := S16x1280) (k0_off2 k) S1x1280.size (k0_off2_inb k)).emb x) 0).val = k.val := by
    show k0_off2 k 0 + 1 * (x 0).val = k.val
    omega
  have h1 : (((Rect.unit (s := S16x1280) (k0_off2 k) S1x1280.size (k0_off2_inb k)).emb x) 1).val = (x 1).val := by
    show k0_off2 k 1 + 1 * (x 1).val = (x 1).val
    omega
  have hk : rowTrip ((Rect.unit (s := S16x1280) (k0_off2 k) S1x1280.size (k0_off2_inb k)).emb x) = k := Fin.ext h0
  unfold scrOf
  rw [hk]
  refine congrArg (rowPay arg1 v0 v2 X1 k) (funext fun a => ?_)
  match a with
  | ⟨0, _⟩ => exact Fin.ext hx0
  | ⟨1, _⟩ => exact Fin.ext h1.symm

/-- The sixteen rows cover the scratch. -/
theorem PB_cover (y : S16x1280.Idx) : ∃ p ∈ PB c i arg1 harg1 arg2 harg2 arg3 harg3 arg4 harg4 arg5 harg5 arg6 harg6 v0 v2 X1 k0_t1_loop.trips, y ∈ p.1.set := by
  refine ⟨tripPiece arg1 v0 v2 X1 (rowTrip y), tripPiece_mem_PB c i arg1 harg1 arg2 harg2 arg3 harg3 arg4 harg4 arg5 harg5 arg6 harg6 v0 v2 X1 (rowTrip y) _ le_rfl (rowTrip y).isLt, ?_⟩
  show y ∈ (Rect.unit (s := S16x1280) (k0_off2 (rowTrip y)) S1x1280.size (k0_off2_inb (rowTrip y))).set
  rw [Rect.mem_set_unit]
  intro a
  rw [k0_off2_eq]
  match a with
  | ⟨0, _⟩ => show (y 0).val ≤ (y 0).val ∧ (y 0).val < (y 0).val + 1; omega
  | ⟨1, _⟩ => have := idx2_lt1 y; show 0 ≤ (y 1).val ∧ (y 1).val < 0 + 1280; omega

/-- So after the loop the scratch reads as `scrOf`, whatever it held before. -/
theorem scratch_read (f : BufTy.Contents (Elt F) arg6.view.ty) :
    arg6.view.read (Elt F) (arg6.view.writes (Elt F) f (PB c i arg1 harg1 arg2 harg2 arg3 harg3 arg4 harg4 arg5 harg5 arg6 harg6 v0 v2 X1 k0_t1_loop.trips)) = scrOf arg1 v0 v2 X1 := by
  rw [View.read_writes_eq_canon _ _ _ (PB_cover c i arg1 harg1 arg2 harg2 arg3 harg3 arg4 harg4 arg5 harg5 arg6 harg6 v0 v2 X1)]
  funext y
  refine View.canon_apply_of_pieces (scrOf arg1 v0 v2 X1) _ (fun p hp x => ?_) y (PB_cover c i arg1 harg1 arg2 harg2 arg3 harg3 arg4 harg4 arg5 harg5 arg6 harg6 v0 v2 X1 y)
  obtain ⟨k', -, rfl⟩ := mem_PB c i arg1 harg1 arg2 harg2 arg3 harg3 arg4 harg4 arg5 harg5 arg6 harg6 v0 v2 X1 _ le_rfl p hp
  exact tripPiece_eq arg1 v0 v2 X1 k' x

end Trips

/-- Row `b` of the level indices, as the trip's row load reads it off the block's contents. -/
def idxRow (x1 : Vec F S16x784 .i32) (k : Fin k0_t1_loop.trips) : Vec F S1x784 .i32 :=
  View.ld x1 (Rect.unit (s := S16x784) (k0_off1 k) S1x784.size (k0_off1_inb k))

/-- The scratch after the loop, over the blocks' contents. -/
def scrFn (x1 : Vec F S16x784 .i32) (x2 : Vec F S1000x1280 .f32) (x3 : Vec F S784x1280 .f32) : Vec F S16x1280 .f32 :=
  fun y => k0_pay1 x2 x3 (idxRow x1 (rowTrip y)) (ix2 (0 : Fin 1) (y 1))

/-- What the body leaves in the output block: the classify product of the quantized scratch. -/
def outFn (i : grid0.Coords) (x1 : Vec F S16x784 .i32) (x2 : Vec F S1000x1280 .f32) (x3 : Vec F S784x1280 .f32) (x4 : Vec F S10x1280 .f32) :
    Vec F S1x16x10 .f32 := k0_pay2 i x4 (scrFn x1 x2 x3)

/-- The run's output piece is the whole block at `outFn` (the run's definition opened once, here). -/
theorem run_fst (c : Dev nD) (i : grid0.Coords) (arg1 : Memref sig .tc .vmem S16x784 .i32) (harg1 : arg1.IsWhole) (arg2 : Memref sig .tc .vmem S1000x1280 .f32) (harg2 : arg2.IsWhole) (arg3 : Memref sig .tc .vmem S784x1280 .f32) (harg3 : arg3.IsWhole) (arg4 : Memref sig .tc .vmem S10x1280 .f32) (harg4 : arg4.IsWhole) (arg5 : Memref sig .tc .vmem S1x16x10 .f32) (harg5 : arg5.IsWhole) (arg6 : Memref sig .tc .vmem S16x1280 .f32) (harg6 : arg6.IsWhole)
    (x1 : Vec F S16x784 .i32) (x2 : Vec F S1000x1280 .f32) (x3 : Vec F S784x1280 .f32) (x4 : Vec F S10x1280 .f32) (x6 : Vec F S16x1280 .f32) :
    (kernelRun c i arg1 harg1 arg2 harg2 arg3 harg3 arg4 harg4 arg5 harg5 arg6 harg6 x1 x2 x3 x4 x6).1.1
      = [⟨Rect.unit (s := S1x16x10) ![0, 0, 0] S1x16x10.size inb_S1x16x10_S1x16x10_0_0_0, outFn i x1 x2 x3 x4⟩] := by
  unfold kernelRun
  dsimp only
  sl_unfold_run_names
  rw [readAt_unread_whole arg4 harg4 x4 zero2, readAt_unread_whole arg2 harg2 x2 zero2, readAt_unread_whole arg3 harg3 x3 zero2,
    View.readAt_eq_ld]
  rw [show Scf.trips k0_t1_loop.lb k0_t1_loop.ub k0_t1_loop.st = k0_t1_loop.trips from rfl]
  rw [scratch_read c i arg1 harg1 arg2 harg2 arg3 harg3 arg4 harg4 arg5 harg5 arg6 harg6 x2 x3 (harg1.unread x1) (harg6.unread x6), View.ld_unit_zero zero2]
  unfold outFn scrFn scrOf rowPay idxRow
  simp only [View.readAt_eq_ld, harg1.read_unread]
  rfl

end Cert.KernelIdeal.Body

end
-- ==== Proof.Spec.lean ====
/-
  What both programs compute, stated once over plain arrays.

  Each pixel `(b, p)` has a level `lvl idx b p` in `0 … 999`. The bundle of image `b` at column `col` is the sum over
  the 784 pixels of the level's value-weight entry times the pixel's position-weight entry. It is quantized to
  `+1` where it is above zero and to `-1` elsewhere, and the result at `(b, c)` is the sum over the 10000 columns of
  the quantized bundle times the classify weight of class `c`.

  The kernel walks the columns in eight tiles of 1280; the last tile overhangs the 10000 columns by 240, and on
  those it multiplies by zero. `part t` is tile `t`'s share of the sum, `blockOut` is what one tile computes from the
  contents of its four buffers, and the two laws below say that the shares add up to the whole (sums over the extended
  reals regroup freely: addition is commutative and associative, and `x * 0 = 0` for every `x`).
-/
import Idealize.ShloMosaic.PureOps.Ideal
import Idealize.ShloMosaic.PureOps.Ideal.Laws
import Idealize.ShloMosaic.Lib.ValueIdx
import Mathlib.Algebra.BigOperators.Fin
import Mathlib.Algebra.BigOperators.Group.Finset.Basic

noncomputable section

open scoped BigOperators
open Idealize.ShloMosaic Idealize.ShloMosaic.ValueIdx

namespace Cert.Spec

/-- The level of pixel `p` of image `b`: the index word read as a number (below 1000 for every word the programs make). -/
def lvl (idx : IVec ⟨2, ![16, 784]⟩ 32) (b : Fin 16) (p : Fin 784) : Fin 1000 :=
  ⟨(idx (ix2 b p)).toNat % 1000, Nat.mod_lt _ (by norm_num)⟩

/-- The level indices both programs compute from the images: flatten, scale by 999, round to even, clip into
    `[0, 999]`, convert to an integer. -/
def idxOf (x : FVec Ideal ⟨3, ![16, 28, 28]⟩ .f32) : IVec ⟨2, ![16, 784]⟩ 32 :=
  fptosi (F := Ideal) 32
    (minimumf (F := Ideal)
      (broadcastInDim ⟨2, ![16, 784]⟩ ![] (by decide) (sitofp (F := Ideal) .f32 (constantI ⟨0, ![]⟩ 32 999#32)))
      (maximumf (F := Ideal)
        (broadcastInDim ⟨2, ![16, 784]⟩ ![] (by decide) (sitofp (F := Ideal) .f32 (constantI ⟨0, ![]⟩ 32 0#32)))
        (Host.roundeven (F := Ideal)
          (mulf (F := Ideal) (shapeCast ⟨2, ![16, 784]⟩ x (by decide))
            (broadcastInDim ⟨2, ![16, 784]⟩ ![] (by decide) (constant (F := Ideal) ⟨0, ![]⟩ .f32 0x4479C000#32))))))

/-- The bundle of image `b` at column `col`. -/
def bundle {C : ℕ} (idx : IVec ⟨2, ![16, 784]⟩ 32) (vw : FVec Ideal ⟨2, ![1000, C]⟩ .f32) (pw : FVec Ideal ⟨2, ![784, C]⟩ .f32)
    (b : Fin 16) (col : Fin C) : EReal :=
  ∑ p : Fin 784, vw (ix2 (lvl idx b p) col) * pw (ix2 p col)

/-- The hard quantization: `1.0` above zero, `-1.0` elsewhere (the three literals kept as the words both programs print). -/
def quant (s : EReal) : EReal :=
  if Ideal.ofBits .f32 0x00000000#32 < s then Ideal.ofBits .f32 0x3F800000#32 else Ideal.ofBits .f32 0xBF800000#32

/-- The result at image `b`, class `c`: the sum over all 10000 columns. -/
def res (idx : IVec ⟨2, ![16, 784]⟩ 32) (vw : FVec Ideal ⟨2, ![1000, 10000]⟩ .f32) (pw : FVec Ideal ⟨2, ![784, 10000]⟩ .f32)
    (cw : FVec Ideal ⟨2, ![10, 10000]⟩ .f32) (b : Fin 16) (c : Fin 10) : EReal :=
  ∑ col : Fin 10000, quant (bundle idx vw pw b col) * cw (ix2 c col)

/-- Tile `t`'s share: the columns `1280 t + j` that exist. -/
def part (idx : IVec ⟨2, ![16, 784]⟩ 32) (vw : FVec Ideal ⟨2, ![1000, 10000]⟩ .f32) (pw : FVec Ideal ⟨2, ![784, 10000]⟩ .f32)
    (cw : FVec Ideal ⟨2, ![10, 10000]⟩ .f32) (t : Fin 8) (b : Fin 16) (c : Fin 10) : EReal :=
  ∑ j : Fin 1280, if h : t.val * 1280 + j.val < 10000 then
    quant (bundle idx vw pw b ⟨t.val * 1280 + j.val, h⟩) * cw (ix2 c ⟨t.val * 1280 + j.val, h⟩) else 0

/-- What one tile computes from its four buffers' contents at grid coordinate `i0`: the classify weights are replaced by
    zero on the columns past 10000, whatever the buffers hold there. -/
def blockOut (i0 : ℕ) (x1 : IVec ⟨2, ![16, 784]⟩ 32) (x2 : FVec Ideal ⟨2, ![1000, 1280]⟩ .f32) (x3 : FVec Ideal ⟨2, ![784, 1280]⟩ .f32)
    (x4 : FVec Ideal ⟨2, ![10, 1280]⟩ .f32) (b : Fin 16) (c : Fin 10) : EReal :=
  ∑ j : Fin 1280, quant (bundle x1 x2 x3 b j) * (if i0 * 1280 + j.val < 10000 then x4 (ix2 c j) else 0)

/-- A tile whose buffers hold the arrays' columns wherever those exist computes its share. -/
theorem blockOut_eq_part (idx : IVec ⟨2, ![16, 784]⟩ 32) (vw : FVec Ideal ⟨2, ![1000, 10000]⟩ .f32) (pw : FVec Ideal ⟨2, ![784, 10000]⟩ .f32)
    (cw : FVec Ideal ⟨2, ![10, 10000]⟩ .f32) (t : Fin 8)
    (x2 : FVec Ideal ⟨2, ![1000, 1280]⟩ .f32) (x3 : FVec Ideal ⟨2, ![784, 1280]⟩ .f32) (x4 : FVec Ideal ⟨2, ![10, 1280]⟩ .f32)
    (h2 : ∀ (l : Fin 1000) (j : Fin 1280) (h : t.val * 1280 + j.val < 10000), x2 (ix2 l j) = vw (ix2 l ⟨t.val * 1280 + j.val, h⟩))
    (h3 : ∀ (p : Fin 784) (j : Fin 1280) (h : t.val * 1280 + j.val < 10000), x3 (ix2 p j) = pw (ix2 p ⟨t.val * 1280 + j.val, h⟩))
    (h4 : ∀ (c : Fin 10) (j : Fin 1280) (h : t.val * 1280 + j.val < 10000), x4 (ix2 c j) = cw (ix2 c ⟨t.val * 1280 + j.val, h⟩))
    (b : Fin 16) (c : Fin 10) :
    blockOut t.val idx x2 x3 x4 b c = part idx vw pw cw t b c := by
  unfold blockOut part
  refine Finset.sum_congr rfl fun j _ => ?_
  by_cases h : t.val * 1280 + j.val < 10000
  · rw [if_pos h, dif_pos h, h4 c j h]
    congr 2
    unfold bundle
    exact Finset.sum_congr rfl fun p _ => by rw [h2 _ j h, h3 p j h]
  · rw [if_neg h, dif_neg h, mul_zero]

end Cert.Spec

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.LibColumnForms.lean ====
/-
  The two layout steps of a `keepdims` reduction along the lanes, read at an index: a vector of `a` row results cast to
  the column `[a, 1]`, and that column broadcast along the lanes to `[a, b]`. Composed, every entry of row `p` of the
  result is the row's one reduced value.
-/
import Idealize.ShloMosaic.Lib.Pipeline.Value
import Idealize.ShloMosaic.Lib.ValueIdx

noncomputable section

open Idealize.ShloMosaic Idealize.ShloMosaic.ValueIdx

namespace Cert.LibColumnForms

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnForms

end
-- ==== Proof.KI.Value.lean ====
/-
  The kernel body's function read at an index, at the ideal values: entry `(b, c)` of the block the body stores is the
  sum over the tile's 1280 columns of the quantized bundle times the masked classify weight.
-/
import proofs.«411585_j63075889709681_3_alg».proof.Proof.KI.Pieces
import proofs.«411585_j63075889709681_3_alg».proof.Proof.Spec
import proofs.«411585_j63075889709681_3_alg».proof.Proof.LibPlainMatmul
import proofs.«411585_j63075889709681_3_alg».proof.Proof.LibColumnForms
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Body

open Cert.KernelIdeal Cert.KernelIdeal.Gen
open Idealize.ShloMosaic Idealize.ShloMosaic.ValueIdx

/-! ## The stages of the two payloads, each read at an index

Words and numbers first (a one-bit flag as a real, a level word against the lane numbers, the tile's column number against
10000); then each operation of the row payload and of the block payload over variables of its literal vector types; then the
two payloads as chains of those readings. -/

/-- A one-bit flag widened to 32 bits and read as a signed integer is the real 1 or 0. -/
private theorem bit_toInt (c : Bool) : (((BitVec.ofBool c).setWidth 32).toInt : ℝ) = if c then 1 else 0 := by
  cases c <;> simp

/-- Among the numbers below 1000, only a word's own number spells the word (no wrap below `2 ^ 32`). -/
private theorem ofNat_eq_iff (w : BitVec 32) (hw : w.toNat < 1000) (l : Fin 1000) :
    BitVec.ofNat 32 l.val = w ↔ l.val = w.toNat := by
  constructor
  · intro h
    have := congrArg BitVec.toNat h
    rw [BitVec.toNat_ofNat] at this
    have hl := l.isLt
    omega
  · intro h
    rw [h]
    simp

/-- The tile's column number `n * 1280 + j` as a 32-bit word, for `n < 8` and `j < 1280`: the product and the sum do not
    wrap, the word is below `2 ^ 31`, and so the signed comparison with 10000 is the comparison of the numbers. -/
private theorem mask_word (n j : ℕ) (hn : n < 8) (hj : j < 1280) :
    (BitVec.ofNat 32 n * 1280#32 + BitVec.ofNat 32 j).slt 10000#32 = decide (n * 1280 + j < 10000) := by
  have e : BitVec.ofNat 32 n * 1280#32 + BitVec.ofNat 32 j = BitVec.ofNat 32 (n * 1280 + j) := by
    apply BitVec.eq_of_toNat_eq
    simp only [BitVec.toNat_add, BitVec.toNat_mul, BitVec.toNat_ofNat]
    omega
  have hm : n * 1280 + j < 2 ^ 31 := by omega
  have h1 : (BitVec.ofNat 32 (n * 1280 + j)).toInt = ((n * 1280 + j : ℕ) : ℤ) := by
    rw [BitVec.toInt_eq_toNat_of_lt (by rw [BitVec.toNat_ofNat]; omega), BitVec.toNat_ofNat]
    omega
  have h2 : (10000#32 : BitVec 32).toInt = 10000 := by decide
  rw [e, BitVec.slt, h1, h2]
  congr 1
  apply propext
  omega

/-- A select on a decided proposition's bit is the `if` on the proposition. -/
private theorem select_ofBool {α : Type} (P : Prop) [Decidable P] (a b : α) :
    Scalar.select (BitVec.ofBool (decide P)) a b = if P then a else b := by
  unfold Scalar.select
  by_cases h : P
  · simp [h]
  · simp [h]

/-- The sum over the 784 pixels along axis 0, read at column `j`. -/
private theorem colsum_apply (v : FVec Ideal S784x1280 .f32) (j : Fin 1280) :
    multiReduction (F := Ideal) .add [0] S1280 v 0x00000000#32 reduces_S784x1280_S1280 (.inl rfl) rfl (ix1 j)
      = ∑ p : Fin 784, v (ix2 p j) := by
  refine (Ideal.multiReduction_add_single v 0x00000000#32 reduces_S784x1280_S1280 (.inl rfl) rfl (ix1 j)).trans ?_
  refine Finset.sum_congr rfl fun p _ => congrArg v (funext fun a => Fin.ext ?_)
  match a with
  | ⟨0, _⟩ => rfl
  | ⟨1, _⟩ => rfl

/-- A `[1280]` row stored as the `[1,1280]` block reads, at `(0, j)`, the row at `j`. -/
private theorem row_addUnit_apply {α : Type} (v : S1280.Idx → α) (j : Fin 1280) :
    shapeCast S1x1280 v shapeCasts_S1280_S1x1280 (ix2 (0 : Fin 1) j) = v (ix1 j) :=
  shapeCast_apply v shapeCasts_S1280_S1x1280 (ix2 (0 : Fin 1) j) (ix1 j) (by
    rw [Shape.rowMajor_val_two, Shape.rowMajor_val_one]
    show j.val = 0 * 1280 + j.val
    omega)

/-- A `[16,10]` result stored as the `[1,16,10]` block reads, at `(0, b, c)`, the result at `(b, c)`. -/
private theorem out_addUnit_apply {α : Type} (v : S16x10.Idx → α) (b : Fin 16) (c : Fin 10) :
    shapeCast S1x16x10 v shapeCasts_S16x10_S1x16x10 (ix3 (0 : Fin 1) b c) = v (ix2 b c) :=
  shapeCast_apply v shapeCasts_S16x10_S1x16x10 (ix3 (0 : Fin 1) b c) (ix2 b c) (by
    rw [Shape.rowMajor_val_three, Shape.rowMajor_val_two]
    show b.val * 10 + c.val = (0 * 16 + b.val) * 10 + c.val
    omega)

/-- The quantization select at an entry: the word of `1.0` where the entry is above the zero word, the word of `-1.0`
    elsewhere. -/
private theorem quant_apply (v6 : FVec Ideal S16x1280 .f32) (b : Fin 16) (j : Fin 1280) :
    (select (cmpf .ogt v6 (broadcast S16x1280 (Scalar.ofBits (F := Ideal) .f32 0x00000000#32)))
        (broadcast S16x1280 (Scalar.ofBits (F := Ideal) .f32 0x3F800000#32))
        (broadcast S16x1280 (Scalar.ofBits (F := Ideal) .f32 0xBF800000#32)) : FVec Ideal S16x1280 .f32) (ix2 b j)
      = Cert.Spec.quant (v6 (ix2 b j)) := by
  show Scalar.select (BitVec.ofBool (decide (Ideal.ofBits .f32 0x00000000#32 < v6 (ix2 b j))))
      (Ideal.ofBits .f32 0x3F800000#32) (Ideal.ofBits .f32 0xBF800000#32) = _
  exact select_ofBool _ _ _

/-- The masked classify weight at `(c, j)`: the weight where the tile's column `i0 * 1280 + j` exists, zero past 10000. -/
private theorem masked_apply (i0 : ℕ) (hi0 : i0 < 8) (v3 : FVec Ideal S10x1280 .f32) (c : Fin 10) (j : Fin 1280) :
    (select (cmpi .slt (addi (broadcast S10x1280 (Scalar.muli (BitVec.ofNat 32 i0) 1280#32)) (iota .tc S10x1280 32 [1] iota_S10x1280_d1_w32))
          (broadcast S10x1280 10000#32))
        v3 (broadcast S10x1280 (Scalar.ofBits (F := Ideal) .f32 0x00000000#32)) : FVec Ideal S10x1280 .f32) (ix2 c j)
      = if i0 * 1280 + j.val < 10000 then v3 (ix2 c j) else 0 := by
  have hio : iota .tc S10x1280 32 [1] iota_S10x1280_d1_w32 (ix2 c j) = BitVec.ofNat 32 j.val :=
    iota_single_apply .tc S10x1280 32 (1 : Fin 2) iota_S10x1280_d1_w32 (ix2 c j)
  show Scalar.select (BitVec.ofBool ((BitVec.ofNat 32 i0 * 1280#32 + iota .tc S10x1280 32 [1] iota_S10x1280_d1_w32 (ix2 c j)).slt 10000#32))
      (v3 (ix2 c j)) (Ideal.ofBits .f32 0x00000000#32) = _
  rw [hio, mask_word i0 j.val hi0 j.isLt, Ideal.ofBits_zero_f32]
  exact select_ofBool _ _ _

/-- The transposed weight at `(j, c)` is the weight at `(c, j)`. -/
private theorem tr_apply {α : Type} (v : S10x1280.Idx → α) (j : Fin 1280) (c : Fin 10) :
    transpose S1280x10 [1, 0] v transposes_S10x1280_p1_0_S1280x10 (ix2 j c) = v (ix2 c j) :=
  transpose_apply [1, 0] v transposes_S10x1280_p1_0_S1280x10 (ix2 j c) (ix2 c j) (fun b => match b with
    | ⟨0, _⟩ => rfl
    | ⟨1, _⟩ => rfl)

/-- The level column read at an index: row `p` of the `[1,784]` block, cast to `[784]`, then to the column `[784,1]`, then
    broadcast along the 1000 levels, is the block's entry `(0, p)` at every level `l`. -/
private theorem lvlCol_apply (v28 : IVec S1x784 32) (p : Fin 784) (l : Fin 1000) :
    broadcastTo S784x1000 (shapeCast S784x1 (shapeCast S784 v28 shapeCasts_S1x784_S784) shapeCasts_S784_S784x1)
        broadcasts_S784x1_S784x1000 (ix2 p l)
      = v28 (ix2 (0 : Fin 1) p) :=
  (Cert.LibColumnForms.broadcastTo_a1_ab_apply _ broadcasts_S784x1_S784x1000 p l).trans <|
  (Cert.LibColumnForms.shapeCast_a_a1_apply _ shapeCasts_S784_S784x1 p (0 : Fin 1)).trans <|
  shapeCast_apply v28 shapeCasts_S1x784_S784 (ix1 p) (ix2 (0 : Fin 1) p) (by
    rw [Shape.rowMajor_val_two, Shape.rowMajor_val_one]
    show 0 * 784 + p.val = p.val
    omega)

/-- An equality test of two 32-bit words, widened and converted to a float, is the real 1 where they agree and 0 elsewhere. -/
private theorem eqflag_apply {s : Shape} (A B : IVec s 32) (i : s.Idx) :
    (truncf .bf16 (sitofp (F := Ideal) .f32 (extui 32 (cmpi .eq A B) natLt_1_32)) bitsLt_bf16_f32 : FVec Ideal s .bf16) i
      = if A i = B i then 1 else 0 := by
  show ((((BitVec.ofBool (A i == B i)).setWidth 32).toInt : ℝ) : EReal) = _
  rw [bit_toInt]
  by_cases h : A i = B i
  · simp [h]
  · simp [h]

/-- The lane number along the levels. -/
private theorem lane_apply (p : Fin 784) (l : Fin 1000) :
    iota .tc S784x1000 32 [1] iota_S784x1000_d1_w32 (ix2 p l) = BitVec.ofNat 32 l.val :=
  iota_single_apply .tc S784x1000 32 (1 : Fin 2) iota_S784x1000_d1_w32 (ix2 p l)

/-! The two products contract the left operand's axis 1 with the right operand's axis 0 and keep the left rows and the right
    columns: the four facts about each record's index maps that say so. -/

private theorem mmA_l0 (i : S784x1280.Idx) (q : dot_S784x1000_S1000x1280_S784x1280_1_0_0_1_n_n.contr.Idx) :
    (dot_S784x1000_S1000x1280_S784x1280_1_0_0_1_n_n.lhsIdx i q 0).val = (i 0).val := by
  unfold DotDims.lhsIdx
  rw [dif_neg (show ¬(0 : Fin S784x1000.rank) ∈ dot_S784x1000_S1000x1280_S784x1280_1_0_0_1_n_n.lhsBatch by decide), dif_pos (show (0 : Fin S784x1000.rank) ∈ dot_S784x1000_S1000x1280_S784x1280_1_0_0_1_n_n.lhsNonContracting by decide)]
  rfl
private theorem mmA_l1 (i : S784x1280.Idx) (q : dot_S784x1000_S1000x1280_S784x1280_1_0_0_1_n_n.contr.Idx) :
    (dot_S784x1000_S1000x1280_S784x1280_1_0_0_1_n_n.lhsIdx i q 1).val = (q ⟨0, by decide⟩).val :=
  dot_S784x1000_S1000x1280_S784x1280_1_0_0_1_n_n.lhsIdx_val_of_single rfl i q
private theorem mmA_r0 (i : S784x1280.Idx) (q : dot_S784x1000_S1000x1280_S784x1280_1_0_0_1_n_n.contr.Idx) :
    (dot_S784x1000_S1000x1280_S784x1280_1_0_0_1_n_n.rhsIdx i q 0).val = (q ⟨0, by decide⟩).val :=
  dot_S784x1000_S1000x1280_S784x1280_1_0_0_1_n_n.rhsIdx_val_of_single rfl i q
private theorem mmA_r1 (i : S784x1280.Idx) (q : dot_S784x1000_S1000x1280_S784x1280_1_0_0_1_n_n.contr.Idx) :
    (dot_S784x1000_S1000x1280_S784x1280_1_0_0_1_n_n.rhsIdx i q 1).val = (i 1).val := by
  unfold DotDims.rhsIdx
  rw [dif_neg (show ¬(1 : Fin S1000x1280.rank) ∈ dot_S784x1000_S1000x1280_S784x1280_1_0_0_1_n_n.rhsBatch by decide), dif_pos (show (1 : Fin S1000x1280.rank) ∈ dot_S784x1000_S1000x1280_S784x1280_1_0_0_1_n_n.rhsNonContracting by decide)]
  rfl

private theorem mmB_l0 (i : S16x10.Idx) (q : dot_S16x1280_S1280x10_S16x10_1_0_0_1_n_n.contr.Idx) :
    (dot_S16x1280_S1280x10_S16x10_1_0_0_1_n_n.lhsIdx i q 0).val = (i 0).val := by
  unfold DotDims.lhsIdx
  rw [dif_neg (show ¬(0 : Fin S16x1280.rank) ∈ dot_S16x1280_S1280x10_S16x10_1_0_0_1_n_n.lhsBatch by decide), dif_pos (show (0 : Fin S16x1280.rank) ∈ dot_S16x1280_S1280x10_S16x10_1_0_0_1_n_n.lhsNonContracting by decide)]
  rfl
private theorem mmB_l1 (i : S16x10.Idx) (q : dot_S16x1280_S1280x10_S16x10_1_0_0_1_n_n.contr.Idx) :
    (dot_S16x1280_S1280x10_S16x10_1_0_0_1_n_n.lhsIdx i q 1).val = (q ⟨0, by decide⟩).val :=
  dot_S16x1280_S1280x10_S16x10_1_0_0_1_n_n.lhsIdx_val_of_single rfl i q
private theorem mmB_r0 (i : S16x10.Idx) (q : dot_S16x1280_S1280x10_S16x10_1_0_0_1_n_n.contr.Idx) :
    (dot_S16x1280_S1280x10_S16x10_1_0_0_1_n_n.rhsIdx i q 0).val = (q ⟨0, by decide⟩).val :=
  dot_S16x1280_S1280x10_S16x10_1_0_0_1_n_n.rhsIdx_val_of_single rfl i q
private theorem mmB_r1 (i : S16x10.Idx) (q : dot_S16x1280_S1280x10_S16x10_1_0_0_1_n_n.contr.Idx) :
    (dot_S16x1280_S1280x10_S16x10_1_0_0_1_n_n.rhsIdx i q 1).val = (i 1).val := by
  unfold DotDims.rhsIdx
  rw [dif_neg (show ¬(1 : Fin S1280x10.rank) ∈ dot_S16x1280_S1280x10_S16x10_1_0_0_1_n_n.rhsBatch by decide), dif_pos (show (1 : Fin S1280x10.rank) ∈ dot_S16x1280_S1280x10_S16x10_1_0_0_1_n_n.rhsNonContracting by decide)]
  rfl

/-- The first product into the zero accumulator, read at `(p, j)`: the sum over the 1000 levels. -/
private theorem mmA_apply (A : FVec Ideal S784x1000 .bf16) (B : FVec Ideal S1000x1280 .bf16) (p : Fin 784) (j : Fin 1280) :
    matmul dot_S784x1000_S1000x1280_S784x1280_1_0_0_1_n_n none A B (constant (F := Ideal) S784x1280 .f32 0x00000000#32) (ix2 p j)
      = ∑ l : Fin 1000, A (ix2 p l) * B (ix2 l j) :=
  Cert.LibPlainMatmul.matmul_zero_apply dot_S784x1000_S1000x1280_S784x1280_1_0_0_1_n_n none rfl rfl mmA_l0 mmA_l1 mmA_r0 mmA_r1 A B p j

/-- The second product into the zero accumulator, read at `(b, c)`: the sum over the tile's 1280 columns. -/
private theorem mmB_apply (A : FVec Ideal S16x1280 .f32) (B : FVec Ideal S1280x10 .f32) (b : Fin 16) (c : Fin 10) :
    matmul dot_S16x1280_S1280x10_S16x10_1_0_0_1_n_n none A B (constant (F := Ideal) S16x10 .f32 0x00000000#32) (ix2 b c)
      = ∑ j : Fin 1280, A (ix2 b j) * B (ix2 j c) :=
  Cert.LibPlainMatmul.matmul_zero_apply dot_S16x1280_S1280x10_S16x10_1_0_0_1_n_n none rfl rfl mmB_l0 mmB_l1 mmB_r0 mmB_r1 A B b c

/-- Against the one-hot row of a word below 1000 a sum over the levels keeps the one term at the word's number. -/
private theorem pick_sum (w : BitVec 32) (hw : w.toNat < 1000) (g : Fin 1000 → EReal) :
    ∑ l : Fin 1000, (if BitVec.ofNat 32 l.val = w then (1 : EReal) else 0) * g l = g ⟨w.toNat, hw⟩ := by
  rw [Finset.sum_eq_single (⟨w.toNat, hw⟩ : Fin 1000)]
  · rw [if_pos ((ofNat_eq_iff w hw _).2 rfl), one_mul]
  · intro l _ hl
    rw [if_neg (fun h => hl (Fin.ext ((ofNat_eq_iff w hw l).1 h))), zero_mul]
  · intro h
    exact absurd (Finset.mem_univ _) h

/-- The row payload at column `j`: the sum over the pixels of the value weight at the pixel's level times the position
    weight, when every level word of the row is below 1000. -/
private theorem pay1_apply (v0 : Vec Ideal S1000x1280 .f32) (v2 : Vec Ideal S784x1280 .f32) (v28 : Vec Ideal S1x784 .i32)
    (hv : ∀ p : Fin 784, (v28 (ix2 (0 : Fin 1) p)).toNat < 1000) (j : Fin 1280) :
    k0_pay1 (F := Ideal) v0 v2 v28 (ix2 (0 : Fin 1) j)
      = ∑ p : Fin 784, v0 (ix2 (⟨(v28 (ix2 (0 : Fin 1) p)).toNat, hv p⟩ : Fin 1000) j) * v2 (ix2 p j) := by
  unfold k0_pay1
  refine (row_addUnit_apply _ j).trans ?_
  refine (colsum_apply _ j).trans ?_
  refine Finset.sum_congr rfl fun p _ => ?_
  refine (mulf_apply _ v2 (ix2 p j)).trans ?_
  refine congrArg (· * v2 (ix2 p j)) ?_
  refine (mmA_apply _ _ p j).trans ?_
  refine Eq.trans (Finset.sum_congr rfl fun l _ => ?_) (pick_sum (v28 (ix2 (0 : Fin 1) p)) (hv p) fun l => v0 (ix2 l j))
  refine congrArg₂ (· * ·) ((eqflag_apply _ _ (ix2 p l)).trans ?_) (truncf_apply v0 bitsLt_bf16_f32 (ix2 l j))
  rw [lane_apply p l, lvlCol_apply v28 p l]

/-- Row `k` of the level indices as the trip's load reads it: entry `(0, p)` is the block's entry `(k, p)`. -/
private theorem idxRow_apply (x1 : Vec Ideal S16x784 .i32) (k : Fin k0_t1_loop.trips) (b : Fin 16) (hb : k.val = b.val) (p : Fin 784) :
    idxRow (F := Ideal) x1 k (ix2 (0 : Fin 1) p) = x1 (ix2 b p) := by
  unfold idxRow
  show x1 ((Rect.unit (s := S16x784) (k0_off1 k) S1x784.size (k0_off1_inb k)).emb (ix2 (0 : Fin 1) p)) = _
  have e0 : k0_off1 k 0 = k.val := by rw [k0_off1_eq]; rfl
  have e1 : k0_off1 k 1 = 0 := by rw [k0_off1_eq]; rfl
  refine congrArg x1 (funext fun a => Fin.ext ?_)
  match a with
  | ⟨0, _⟩ => show k0_off1 k 0 + 1 * 0 = b.val; omega
  | ⟨1, _⟩ => show k0_off1 k 1 + 1 * p.val = p.val; omega

/-- The scratch after the loop at `(b, j)`: the bundle of image `b` at the tile's column `j`. -/
private theorem scrFn_apply (x1 : Vec Ideal S16x784 .i32) (x2 : Vec Ideal S1000x1280 .f32) (x3 : Vec Ideal S784x1280 .f32)
    (hidx : ∀ (b : Fin 16) (p : Fin 784), (x1 (ix2 b p)).toNat < 1000) (b : Fin 16) (j : Fin 1280) :
    scrFn (F := Ideal) x1 x2 x3 (ix2 b j) = Cert.Spec.bundle x1 x2 x3 b j := by
  have hrow : ∀ p : Fin 784, idxRow (F := Ideal) x1 (rowTrip (ix2 b j)) (ix2 (0 : Fin 1) p) = x1 (ix2 b p) :=
    fun p => idxRow_apply x1 (rowTrip (ix2 b j)) b rfl p
  have hv : ∀ p : Fin 784, (idxRow (F := Ideal) x1 (rowTrip (ix2 b j)) (ix2 (0 : Fin 1) p)).toNat < 1000 :=
    fun p => by rw [hrow p]; exact hidx b p
  unfold scrFn
  refine (pay1_apply x2 x3 (idxRow (F := Ideal) x1 (rowTrip (ix2 b j))) hv j).trans ?_
  unfold Cert.Spec.bundle
  refine Finset.sum_congr rfl fun p _ => ?_
  refine congrArg (· * x3 (ix2 p j)) (congrArg x2 ?_)
  refine congrArg (fun l : Fin 1000 => ix2 l j) (Fin.ext ?_)
  show (idxRow (F := Ideal) x1 (rowTrip (ix2 b j)) (ix2 (0 : Fin 1) p)).toNat = (x1 (ix2 b p)).toNat % 1000
  rw [hrow p, Nat.mod_eq_of_lt (hidx b p)]

/-- The block payload at `(0, b, c)`: the sum over the tile's columns of the quantized scratch times the masked weight. -/
private theorem pay2_apply (i : grid0.Coords) (v3 : Vec Ideal S10x1280 .f32) (v6 : Vec Ideal S16x1280 .f32) (b : Fin 16) (c : Fin 10) :
    k0_pay2 (F := Ideal) i v3 v6 (ix3 (0 : Fin 1) b c)
      = ∑ j : Fin 1280, Cert.Spec.quant (v6 (ix2 b j)) * (if (i 0).val * 1280 + j.val < 10000 then v3 (ix2 c j) else 0) := by
  unfold k0_pay2
  refine (out_addUnit_apply _ b c).trans ?_
  refine (mmB_apply _ _ b c).trans ?_
  refine Finset.sum_congr rfl fun j _ => ?_
  refine congrArg₂ (· * ·) (quant_apply v6 b j) ?_
  refine (tr_apply _ j c).trans ?_
  exact masked_apply (i 0).val (i 0).isLt v3 c j

/-- Entry `(0, b, c)` of what the body stores, from the contents of its four input buffers: the tile's share computed from
    the buffers (`Cert.Spec.blockOut`), when every level index is below 1000. -/
theorem outFn_apply (i : grid0.Coords) (x1 : Vec Ideal S16x784 .i32) (x2 : Vec Ideal S1000x1280 .f32) (x3 : Vec Ideal S784x1280 .f32)
    (x4 : Vec Ideal S10x1280 .f32) (hidx : ∀ (b : Fin 16) (p : Fin 784), (x1 (ix2 b p)).toNat < 1000) (b : Fin 16) (c : Fin 10) :
    outFn (F := Ideal) i x1 x2 x3 x4 (ix3 (0 : Fin 1) b c) = Cert.Spec.blockOut (i 0).val x1 x2 x3 x4 b c := by
  unfold outFn
  refine (pay2_apply i x4 (scrFn (F := Ideal) x1 x2 x3) b c).trans ?_
  unfold Cert.Spec.blockOut
  refine Finset.sum_congr rfl fun j _ => ?_
  rw [scrFn_apply x1 x2 x3 hidx b j]

end Cert.KernelIdeal.Body

end
-- ==== Proof.SpecLaws.lean ====
/-
  Two facts about the specification: every level index is below 1000, and the eight tiles' shares add up to the
  whole sum over the 10000 columns.
-/
import proofs.«411585_j63075889709681_3_alg».proof.Proof.Spec
import Mathlib.Algebra.Order.Floor.Ring
import Mathlib.Data.EReal.Basic
import Mathlib.Data.Fintype.BigOperators
import Mathlib.Logic.Equiv.Fin.Basic

noncomputable section

open scoped BigOperators
open Idealize.ShloMosaic Idealize.ShloMosaic.ValueIdx

namespace Cert.Spec

/-! ## The level index -/

/-- Clipping any extended real into `[0, 999]` gives a real of that interval: `-∞` goes to `0`, `+∞` to `999`, and a
    real `a` to `min 999 (max 0 a)`. -/
private theorem clip_real (r : EReal) :
    ∃ q : ℝ, 0 ≤ q ∧ q ≤ 999 ∧ min ((999 : ℝ) : EReal) (max ((0 : ℝ) : EReal) r) = (q : EReal) := by
  induction r using EReal.rec with
  | bot => exact ⟨0, le_refl _, by norm_num, by simp⟩
  | coe a =>
    refine ⟨min 999 (max 0 a), le_min (by norm_num) (le_max_left _ _), min_le_left _ _, ?_⟩
    rw [EReal.coe_strictMono.monotone.map_min, EReal.coe_strictMono.monotone.map_max]
  | top => exact ⟨999, by norm_num, le_refl _, by simp⟩

/-- Truncating a real `q` of `[0, 999]` to a 32-bit word gives a word below 1000: the integer is `⌊q⌋`, which lies in
    `[0, 999]`, far inside the signed 32-bit range, so neither the clamp nor the reduction modulo `2 ^ 32` changes it. -/
private theorem fptosi_real_lt (q : ℝ) (h0 : 0 ≤ q) (h1 : q ≤ 999) : (Ideal.fptosi 32 (q : EReal)).toNat < 1000 := by
  have hf0 : 0 ≤ ⌊q⌋ := Int.floor_nonneg.mpr h0
  have hf1 : ⌊q⌋ ≤ 999 := by
    have : ⌊q⌋ ≤ ⌊(999 : ℝ)⌋ := Int.floor_le_floor h1
    simpa using this
  rw [Ideal.fptosi, Ideal.toIntClamped_coe, if_pos h0, BitVec.toNat_ofInt]
  have h2 : min (((2 ^ (32 - 1) : ℕ) : ℤ) - 1) ⌊q⌋ = ⌊q⌋ := min_eq_right (by norm_num; omega)
  have h3 : max (-((2 ^ (32 - 1) : ℕ) : ℤ)) ⌊q⌋ = ⌊q⌋ := max_eq_right (by norm_num; omega)
  rw [h2, h3]
  omega

/-- Every level index is below 1000: the clip puts the rounded value in `[0, 999]`, and the conversion truncates it to
    an integer of that range. -/
theorem idxOf_lt (x : FVec Ideal ⟨3, ![16, 28, 28]⟩ .f32) (b : Fin 16) (p : Fin 784) : (idxOf x (ix2 b p)).toNat < 1000 := by
  -- At the index the value is the conversion of `min 999 (max 0 r)`, `r` the rounded scaled pixel, whatever it is.
  obtain ⟨r, hr⟩ : ∃ r : EReal, idxOf x (ix2 b p) =
      Ideal.fptosi 32 (min ((((999#32 : BitVec 32).toInt : ℝ)) : EReal) (max ((((0#32 : BitVec 32).toInt : ℝ)) : EReal) r)) :=
    ⟨_, rfl⟩
  have h999 : (999#32 : BitVec 32).toInt = 999 := by decide
  have h0 : (0#32 : BitVec 32).toInt = 0 := by decide
  rw [hr, h999, h0, Int.cast_ofNat, Int.cast_zero]
  obtain ⟨q, hq0, hq1, hq⟩ := clip_real r
  rw [hq]
  exact fptosi_real_lt q hq0 hq1

/-! ## The eight shares -/

/-- Eight consecutive runs of 1280 make up the first 10240 naturals: `(t, j) ↦ 1280 t + j` is a bijection from
    `Fin 8 × Fin 1280` onto them. -/
private theorem sum_tiles {M : Type*} [AddCommMonoid M] (g : ℕ → M) :
    ∑ t : Fin 8, ∑ j : Fin 1280, g (t.val * 1280 + j.val) = ∑ n ∈ Finset.range 10240, g n :=
  calc ∑ t : Fin 8, ∑ j : Fin 1280, g (t.val * 1280 + j.val)
      = ∑ x : Fin 8 × Fin 1280, g (x.1.val * 1280 + x.2.val) :=
        (Fintype.sum_prod_type' (fun (t : Fin 8) (j : Fin 1280) => g (t.val * 1280 + j.val))).symm
    _ = ∑ x : Fin 8 × Fin 1280, g (finProdFinEquiv x).val :=
        Fintype.sum_congr _ _ fun x => by
          rw [finProdFinEquiv_apply_val, Nat.add_comm, Nat.mul_comm]
    _ = ∑ i : Fin (8 * 1280), g i.val := Equiv.sum_comp finProdFinEquiv fun i : Fin (8 * 1280) => g i.val
    _ = ∑ n ∈ Finset.range 10240, g n := (Finset.sum_range g).symm

/-- A sum over the first 10240 naturals of a function that vanishes from 10000 on is the sum over `Fin 10000`. -/
private theorem sum_cut {M : Type*} [AddCommMonoid M] (f : Fin 10000 → M) :
    ∑ n ∈ Finset.range 10240, (if h : n < 10000 then f ⟨n, h⟩ else 0) = ∑ col : Fin 10000, f col := by
  have hsub : Finset.range 10000 ⊆ Finset.range 10240 := Finset.range_subset_range.mpr (by norm_num)
  rw [← Finset.sum_subset hsub (fun n _ hn => dif_neg (by simpa using hn)), Finset.sum_range]
  exact Fintype.sum_congr _ _ fun i => dif_pos i.isLt

/-- The eight shares add up to the whole sum. -/
theorem sum_part (idx : IVec ⟨2, ![16, 784]⟩ 32) (vw : FVec Ideal ⟨2, ![1000, 10000]⟩ .f32) (pw : FVec Ideal ⟨2, ![784, 10000]⟩ .f32)
    (cw : FVec Ideal ⟨2, ![10, 10000]⟩ .f32) (b : Fin 16) (c : Fin 10) :
    ∑ t : Fin 8, part idx vw pw cw t b c = res idx vw pw cw b c := by
  -- The term of column `col`, and its extension by zero past the last column.
  let f : Fin 10000 → EReal := fun col => quant (bundle idx vw pw b col) * cw (ix2 c col)
  let g : ℕ → EReal := fun n => if h : n < 10000 then f ⟨n, h⟩ else 0
  show ∑ t : Fin 8, ∑ j : Fin 1280, g (t.val * 1280 + j.val) = ∑ col : Fin 10000, f col
  rw [sum_tiles g]
  exact sum_cut f

end Cert.Spec

end
-- ==== Proof.KI.Exact.lean ====
import proofs.«411585_j63075889709681_3_alg».proof.Proof.KI.FrameData
import proofs.«411585_j63075889709681_3_alg».proof.Proof.KI.Pieces
import proofs.«411585_j63075889709681_3_alg».proof.Proof.KI.Value
import proofs.«411585_j63075889709681_3_alg».proof.Proof.Spec
import proofs.«411585_j63075889709681_3_alg».proof.Proof.SpecLaws
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open scoped BigOperators
open Idealize.ShloMosaic.ValueIdx

/-! ## The idealized kernel's result

At the ideal values the output block at grid point `t` is tile `t`'s share of the specification's sum, whatever the
weight buffers hold past the arrays' last column: there the classify weight is replaced by zero, and `x * 0 = 0`. -/

variable (m : (ℓ : Loc nD τ sig) → Buf (Elt Ideal) ℓ) (ρ : Dev nD → PrngReg)

/-- The four argument arrays on core `c`. -/
abbrev xA (c : Dev nD) : FVec Ideal ⟨3, ![16, 28, 28]⟩ .f32 := m ((c : Thread nD τ).loc main_arg0)
abbrev pwA (c : Dev nD) : FVec Ideal ⟨2, ![784, 10000]⟩ .f32 := m ((c : Thread nD τ).loc main_arg1)
abbrev vwA (c : Dev nD) : FVec Ideal ⟨2, ![1000, 10000]⟩ .f32 := m ((c : Thread nD τ).loc main_arg2)
abbrev cwA (c : Dev nD) : FVec Ideal ⟨2, ![10, 10000]⟩ .f32 := m ((c : Thread nD τ).loc main_arg3)

/-- The level indices the region finds are the specification's. -/
theorem V_v5 (c : Dev nD) : (V m c main_v5 : S16x784.Idx → BitVec 32) = Cert.Spec.idxOf (xA m c) := by
  dsimp only [V, V0]
  simp only [hostOps0, hostOps0_1, hostOps0_2, hostOps0_3, hostOps0_4, List.flatten_cons, List.flatten_nil, List.append_nil, List.cons_append,
    List.nil_append]
  after_results
  rfl

/-- The one grid axis: point `t` has coordinate `t`. -/
theorem coords_val (t : Fin cfg0.N) : (grid0.coords t 0).val = t.val := by
  rcases fin_N0 t with rfl | rfl | rfl | rfl | rfl | rfl | rfl | rfl <;> rfl

/-- The tile a grid point works on. -/
def tileOf (t : Fin cfg0.N) : Fin 8 := ⟨t.val, Nat.lt_of_lt_of_eq t.isLt N_0⟩

/-- The index window's block is the whole index array. -/
theorem iblk0_eq (c : Dev nD) (t : Fin cfg0.N) : (iblk m c 0 t : S16x784.Idx → BitVec 32) = Cert.Spec.idxOf (xA m c) := by
  rw [← V_v5]
  funext y
  unfold iblk
  rw [View.read_apply]
  show V m c main_v5 (((cfg0.win 0).blk t).view.emb y) = V m c main_v5 y
  refine congrArg (V m c main_v5) (funext fun a => Fin.ext ?_)
  have hi : ∀ t : Fin cfg0.N, win0_0.index t 0 = 0 ∧ win0_0.index t 1 = 0 := (by decide +kernel : ∀ t : Fin grid0.N, _)
  match a with
  | ⟨0, _⟩ => show win0_0.index t 0 * 16 + 1 * (y 0).val = (y 0).val; rw [(hi t).1]; omega
  | ⟨1, _⟩ => show win0_0.index t 1 * 784 + 1 * (y 1).val = (y 1).val; rw [(hi t).2]; omega

/-- The block index of the three weight windows at point `t`: row block 0, column block `t`; and how many columns of
    the block lie inside the array. -/
theorem idx1 : ∀ t : Fin cfg0.N, win0_1.index t 0 = 0 ∧ win0_1.index t 1 = t.val
    ∧ win0_1.xsize (grid0.coords t) 0 = 1000 ∧ win0_1.xsize (grid0.coords t) 1 = min 1280 (10000 - t.val * 1280) :=
  (by decide +kernel : ∀ t : Fin grid0.N, _)
theorem idx2 : ∀ t : Fin cfg0.N, win0_2.index t 0 = 0 ∧ win0_2.index t 1 = t.val
    ∧ win0_2.xsize (grid0.coords t) 0 = 784 ∧ win0_2.xsize (grid0.coords t) 1 = min 1280 (10000 - t.val * 1280) :=
  (by decide +kernel : ∀ t : Fin grid0.N, _)
theorem idx3 : ∀ t : Fin cfg0.N, win0_3.index t 0 = 0 ∧ win0_3.index t 1 = t.val
    ∧ win0_3.xsize (grid0.coords t) 0 = 10 ∧ win0_3.xsize (grid0.coords t) 1 = min 1280 (10000 - t.val * 1280) :=
  (by decide +kernel : ∀ t : Fin grid0.N, _)

/-- A value-weight block's buffer after a fetch reads the array's column where that exists, whatever it held past it. -/
theorem fill1_apply (c : Dev nD) (t : Fin cfg0.N) (d : S1000x1280.Idx → EReal) (l : Fin 1000) (j : Fin 1280)
    (h : t.val * 1280 + j.val < 10000) :
    win0_1.fill (grid0.coords t) d (iblk m c 1 t) (ix2 l j) = vwA m c (ix2 l ⟨t.val * 1280 + j.val, h⟩) := by
  obtain ⟨i0, i1, s0, s1⟩ := idx1 t
  have hm : win0_1.moved (grid0.coords t) (ix2 l j) = true := by
    rw [Pipeline.Window.moved_iff]
    intro a
    match a with
    | ⟨0, _⟩ => show l.val < win0_1.xsize (grid0.coords t) 0; rw [s0]; exact l.isLt
    | ⟨1, _⟩ => show j.val < win0_1.xsize (grid0.coords t) 1; rw [s1]; have := j.isLt; omega
  unfold Pipeline.Window.fill
  rw [dif_pos hm]
  unfold iblk
  rw [View.read_apply]
  refine Eq.trans ?_ (congrFun (V_main_arg2 m c) _)
  show V m c main_arg2 (((cfg0.win 1).blk t).view.emb _) = V m c main_arg2 _
  refine congrArg (V m c main_arg2) (funext fun a => Fin.ext ?_)
  match a with
  | ⟨0, _⟩ => show win0_1.index t 0 * 1000 + 1 * l.val = l.val; rw [i0]; omega
  | ⟨1, _⟩ => show win0_1.index t 1 * 1280 + 1 * j.val = t.val * 1280 + j.val; rw [i1]; omega

/-- The same for a position-weight block, -/
theorem fill2_apply (c : Dev nD) (t : Fin cfg0.N) (d : S784x1280.Idx → EReal) (p : Fin 784) (j : Fin 1280)
    (h : t.val * 1280 + j.val < 10000) :
    win0_2.fill (grid0.coords t) d (iblk m c 2 t) (ix2 p j) = pwA m c (ix2 p ⟨t.val * 1280 + j.val, h⟩) := by
  obtain ⟨i0, i1, s0, s1⟩ := idx2 t
  have hm : win0_2.moved (grid0.coords t) (ix2 p j) = true := by
    rw [Pipeline.Window.moved_iff]
    intro a
    match a with
    | ⟨0, _⟩ => show p.val < win0_2.xsize (grid0.coords t) 0; rw [s0]; exact p.isLt
    | ⟨1, _⟩ => show j.val < win0_2.xsize (grid0.coords t) 1; rw [s1]; have := j.isLt; omega
  unfold Pipeline.Window.fill
  rw [dif_pos hm]
  unfold iblk
  rw [View.read_apply]
  refine Eq.trans ?_ (congrFun (V_main_arg1 m c) _)
  show V m c main_arg1 (((cfg0.win 2).blk t).view.emb _) = V m c main_arg1 _
  refine congrArg (V m c main_arg1) (funext fun a => Fin.ext ?_)
  match a with
  | ⟨0, _⟩ => show win0_2.index t 0 * 784 + 1 * p.val = p.val; rw [i0]; omega
  | ⟨1, _⟩ => show win0_2.index t 1 * 1280 + 1 * j.val = t.val * 1280 + j.val; rw [i1]; omega

/-- and for a classify-weight block. -/
theorem fill3_apply (c : Dev nD) (t : Fin cfg0.N) (d : S10x1280.Idx → EReal) (k : Fin 10) (j : Fin 1280)
    (h : t.val * 1280 + j.val < 10000) :
    win0_3.fill (grid0.coords t) d (iblk m c 3 t) (ix2 k j) = cwA m c (ix2 k ⟨t.val * 1280 + j.val, h⟩) := by
  obtain ⟨i0, i1, s0, s1⟩ := idx3 t
  have hm : win0_3.moved (grid0.coords t) (ix2 k j) = true := by
    rw [Pipeline.Window.moved_iff]
    intro a
    match a with
    | ⟨0, _⟩ => show k.val < win0_3.xsize (grid0.coords t) 0; rw [s0]; exact k.isLt
    | ⟨1, _⟩ => show j.val < win0_3.xsize (grid0.coords t) 1; rw [s1]; have := j.isLt; omega
  unfold Pipeline.Window.fill
  rw [dif_pos hm]
  unfold iblk
  rw [View.read_apply]
  refine Eq.trans ?_ (congrFun (V_main_arg3 m c) _)
  show V m c main_arg3 (((cfg0.win 3).blk t).view.emb _) = V m c main_arg3 _
  refine congrArg (V m c main_arg3) (funext fun a => Fin.ext ?_)
  match a with
  | ⟨0, _⟩ => show win0_3.index t 0 * 10 + 1 * k.val = k.val; rw [i0]; omega
  | ⟨1, _⟩ => show win0_3.index t 1 * 1280 + 1 * j.val = t.val * 1280 + j.val; rw [i1]; omega

/-- Tile `t`'s share of the result: what the output block's buffer holds after the body at point `t`. -/
def oI (c : Dev nD) (t : Fin cfg0.N) : Vec Ideal S1x16x10 .f32 := fun y =>
  Cert.Spec.part (Cert.Spec.idxOf (xA m c)) (vwA m c) (pwA m c) (cwA m c) (tileOf t) ⟨(y 1).val, (y 1).isLt⟩ ⟨(y 2).val, (y 2).isLt⟩

/-- The body's output on the point's buffers is that share, whatever the weight buffers hold past the arrays' end. -/
theorem out_eq (c : Dev nD) (t : Fin cfg0.N) (d1 : S1000x1280.Idx → EReal) (d2 : S784x1280.Idx → EReal) (d3 : S10x1280.Idx → EReal) :
    outFn (F := Ideal) (grid0.coords t) (iblk m c 0 t) (win0_1.fill (grid0.coords t) d1 (iblk m c 1 t))
      (win0_2.fill (grid0.coords t) d2 (iblk m c 2 t)) (win0_3.fill (grid0.coords t) d3 (iblk m c 3 t)) = oI m c t := by
  have e0 : (iblk m c 0 t : S16x784.Idx → BitVec 32) = Cert.Spec.idxOf (xA m c) := iblk0_eq m c t
  funext y
  obtain ⟨u, b, k, rfl⟩ : ∃ (u : Fin 1) (b : Fin 16) (k : Fin 10), y = ix3 u b k := ⟨y 0, y 1, y 2, eq_ix3 y⟩
  obtain rfl : u = 0 := Subsingleton.elim _ _
  have hidx : ∀ (b : Fin 16) (p : Fin 784), ((iblk m c 0 t : S16x784.Idx → BitVec 32) (ix2 b p)).toNat < 1000 := fun b p => by
    rw [e0]; exact Cert.Spec.idxOf_lt _ b p
  refine (outFn_apply (grid0.coords t) (iblk m c 0 t) _ _ _ hidx b k).trans ?_
  rw [e0]
  have hb := Cert.Spec.blockOut_eq_part (Cert.Spec.idxOf (xA m c)) (vwA m c) (pwA m c) (cwA m c) (tileOf t)
    (win0_1.fill (grid0.coords t) d1 (iblk m c 1 t)) (win0_2.fill (grid0.coords t) d2 (iblk m c 2 t))
    (win0_3.fill (grid0.coords t) d3 (iblk m c 3 t))
    (fun l j h => fill1_apply m c t d1 l j h) (fun p j h => fill2_apply m c t d2 p j h) (fun k j h => fill3_apply m c t d3 k j h) b k
  rw [coords_val]
  exact hb

local notation "𝕄I" => MT nD τ sig Unit (Elt Ideal) ℕ (UR sig nD τ) ℕ

/-- The output block's buffer after the run's one whole-block store reads as the body's function of the four input
    buffers, whatever it and the scratch held before. -/
theorem out_read (c : Dev nD) (i : grid0.Coords) (arg1 : Memref sig .tc .vmem S16x784 .i32) (harg1 : arg1.IsWhole) (arg2 : Memref sig .tc .vmem S1000x1280 .f32) (harg2 : arg2.IsWhole) (arg3 : Memref sig .tc .vmem S784x1280 .f32) (harg3 : arg3.IsWhole) (arg4 : Memref sig .tc .vmem S10x1280 .f32) (harg4 : arg4.IsWhole) (arg5 : Memref sig .tc .vmem S1x16x10 .f32) (harg5 : arg5.IsWhole) (arg6 : Memref sig .tc .vmem S16x1280 .f32) (harg6 : arg6.IsWhole)
    (x1 : Vec F S16x784 .i32) (x2 : Vec F S1000x1280 .f32) (x3 : Vec F S784x1280 .f32) (x4 : Vec F S10x1280 .f32) (x6 : Vec F S16x1280 .f32) (f : BufTy.Contents (Elt F) arg5.view.ty) :
    arg5.view.read (Elt F) (arg5.view.writes (Elt F) f (kernelRun c i arg1 harg1 arg2 harg2 arg3 harg3 arg4 harg4 arg5 harg5 arg6 harg6 x1 x2 x3 x4 x6).1.1) = outFn i x1 x2 x3 x4 := by
  rw [run_fst, View.read_writes_eq_canon _ _ _ (fun y => ⟨_, List.mem_singleton_self _, View.mem_set_unit_zero zero3 inb_S1x16x10_S1x16x10_0_0_0 y⟩),
    View.canon_unit_zero zero3]

/-- THE BODY OBLIGATION with the output named: at every point the body leaves tile `t`'s share in the output block's buffer. -/
theorem body_obligation_exact (c : Dev nD) :
    BodyObligationLoose (dats m (oI m) 0 c) (defs₀ (F := Ideal)) Variants.none () Set.univ := fun t => by
  rw [bigSep_W0, bigSep_W0]
  simp only
  rw [show (dats m (oI m) 0 c).Φ t.succ = (dats m (oI m) 0 c).Φ t.castSucc from rfl,
    show (dats m (oI m) 0 c).owesAt () t.succ = (dats m (oI m) 0 c).owesAt () t.castSucc from rfl,
    show (dats m (oI m) 0 c).Φ t.castSucc = (Pipeline.ΦA spec0 c : sProp 𝕄I) from rfl]
  iintro ⟨HΦ, Ho, ⟨%d0, H0⟩, ⟨%d1, H1⟩, ⟨%d2, H2⟩, ⟨%d3, H3⟩, ⟨%d4, H4⟩⟩
  rw [before0_0 m (oI m) c t d0, before0_1 m (oI m) c t d1, before0_2 m (oI m) c t d2, before0_3 m (oI m) c t d3]
  have h1 : win0_1.cut (grid0.coords t) ((dats m (oI m) 0 c).after 1 t) = iblk m c 1 t := by
    rw [after0_1]; exact win0_1.cut_fill _ _ _
  have h2 : win0_2.cut (grid0.coords t) ((dats m (oI m) 0 c).after 2 t) = iblk m c 2 t := by
    rw [after0_2]; exact win0_2.cut_fill _ _ _
  have h3 : win0_3.cut (grid0.coords t) ((dats m (oI m) 0 c).after 3 t) = iblk m c 3 t := by
    rw [after0_3]; exact win0_3.cut_fill _ _ _
  iapply (body_run (F := Ideal) c t (iblk m c 0 t) (win0_1.fill (grid0.coords t) d1 (iblk m c 1 t))
    (win0_2.fill (grid0.coords t) d2 (iblk m c 2 t)) (win0_3.fill (grid0.coords t) d3 (iblk m c 3 t)) _)
  isplitl [HΦ]; · iexact HΦ
  isplitl [H0]; · iexact H0
  isplitl [H1]; · iexact H1
  isplitl [H2]; · iexact H2
  isplitl [H3]; · iexact H3
  isplitl [H4]; · iexists _; iexact H4
  iintro ⟨HΦ, H0, H1, H2, H3, ⟨%x6, %f5, H5⟩⟩
  isplitl [HΦ]; · iexact HΦ
  isplitl [Ho]; · iexact Ho
  isplitl [H0]
  · rw [after0_0]; iexact H0
  isplitl [H1]
  · iexists d1
    change _ ⊢ owns (c : Thread nD τ) (ms0_1 t) fullShare (win0_1.fill (grid0.coords t) d1 (win0_1.cut (grid0.coords t) ((dats m (oI m) 0 c).after 1 t)))
    rw [h1]; try iexact H1
  isplitl [H2]
  · iexists d2
    change _ ⊢ owns (c : Thread nD τ) (ms0_2 t) fullShare (win0_2.fill (grid0.coords t) d2 (win0_2.cut (grid0.coords t) ((dats m (oI m) 0 c).after 2 t)))
    rw [h2]; try iexact H2
  isplitl [H3]
  · iexists d3
    change _ ⊢ owns (c : Thread nD τ) (ms0_3 t) fullShare (win0_3.fill (grid0.coords t) d3 (win0_3.cut (grid0.coords t) ((dats m (oI m) 0 c).after 3 t)))
    rw [h3]; try iexact H3
  · rw [after0_4]
    unfold owns
    iexists _; isplitr
    swap; · iexact H5
    ipureintro
    rw [out_read]
    exact out_eq m c t d1 d2 d3

set_option backward.isDefEq.respectTransparency.types false in
/-- At the compiled mesh, for any extended-real values, from any memory with zero counters: every weakly fair execution of
    @main terminates, every array of the pipeline ends at what the proof data compute, every other unscoped buffer at what
    the host lines after the region leave. -/
theorem run_exact : θ_run defs (onTc (τ := τ) (main (F := Ideal))) (s₀ m ρ)
    (Pipeline.FramePost cfgs (dats m (oI m)) 0 (Pipeline.afterTail₀ cfgs (dats m (oI m)) 0 (V0 m) [hostOps1])) :=
  Pipeline.θ_run_frame_around cfgs (dats m (oI m)) (0 : Fin 1) launch0 defs₀ Variants.none m ρ main
    (hbody := body_obligation_exact m)
    (hshare := fun c => (dats m (oI m) 0 c).share_full fun _ => rfl) (howed := fun _ _ => rfl)
    (V₀ := V0 m) (opss := [hostOps1]) (hsub := sfx_sub) (hfresh := sfx_fresh) (hkeep := sfx_keeps)
    (hmain := hmain m Variants.none) (hA := A_eq m (oI m)) (hΦ := fun _ _ => rfl)

/-! ## The output array and the result -/

/-- The output array after the run: entry `(d, b, k)` is tile `d`'s share at `(b, k)`. -/
def G4 (c : Dev nD) : S8x16x10.Idx → EReal := fun i =>
  Cert.Spec.part (Cert.Spec.idxOf (xA m c)) (vwA m c) (pwA m c) (cwA m c) ⟨(i 0).val, (i 0).isLt⟩ ⟨(i 1).val, (i 1).isLt⟩ ⟨(i 2).val, (i 2).isLt⟩

/-- The output window's block at point `t` is slab `t` of the array, whole. -/
theorem idx4 : ∀ t : Fin cfg0.N, win0_4.index t 0 = t.val ∧ win0_4.index t 1 = 0 ∧ win0_4.index t 2 = 0
    ∧ win0_4.xsize (grid0.coords t) 0 = 1 ∧ win0_4.xsize (grid0.coords t) 1 = 16 ∧ win0_4.xsize (grid0.coords t) 2 = 10 :=
  (by decide +kernel : ∀ t : Fin grid0.N, _)

theorem flushed4 (c : Dev nD) (t : Fin cfg0.N) :
    (dats m (oI m) 0 c).flushed 4 t = ((cfg0.win 4).blk t).view.read (Elt Ideal) (G4 m c) := by
  show (dats m (oI m) 0 c).after 4 t = _
  rw [after0_4]
  funext y
  rw [View.read_apply]
  show oI m c t y = G4 m c (((cfg0.win 4).blk t).view.emb y)
  obtain ⟨i0, i1, i2, -, -, -⟩ := idx4 t
  have hy0 : (y 0).val = 0 := by have := (y 0).isLt; change (y 0).val < 1 at this; omega
  have e0 : ((((cfg0.win 4).blk t).view.emb y) 0).val = t.val := by
    show win0_4.index t 0 * 1 + 1 * (y 0).val = t.val; rw [i0]; omega
  have e1 : ((((cfg0.win 4).blk t).view.emb y) 1).val = (y 1).val := by
    show win0_4.index t 1 * 16 + 1 * (y 1).val = (y 1).val; rw [i1]; omega
  have e2 : ((((cfg0.win 4).blk t).view.emb y) 2).val = (y 2).val := by
    show win0_4.index t 2 * 10 + 1 * (y 2).val = (y 2).val; rw [i2]; omega
  unfold oI G4
  congr 1
  · exact Fin.ext e0.symm
  · exact Fin.ext e1.symm
  · exact Fin.ext e2.symm

theorem cover4 (i : S8x16x10.Idx) :
    ∃ t : Fin cfg0.N, (cfg0.win 4).flush t = true ∧ i ∈ ((cfg0.win 4).blk t).view.set := by
  have h0 : (i 0).val < 8 := (i 0).isLt
  have h1 : (i 1).val < 16 := (i 1).isLt
  have h2 : (i 2).val < 10 := (i 2).isLt
  let t : Fin cfg0.N := ⟨(i 0).val, Nat.lt_of_lt_of_eq h0 N_0.symm⟩
  refine ⟨t, flush0_4 t, ?_⟩
  obtain ⟨i0, i1, i2, s0, s1, s2⟩ := idx4 t
  show i ∈ ((View.whole main_v6).slice (win0_4.rect t)).set
  rw [View.set_slice_whole, Rect.mem_set_unit]
  intro a
  match a with
  | ⟨0, _⟩ =>
    show win0_4.index t 0 * 1 ≤ (i 0).val ∧ (i 0).val < win0_4.index t 0 * 1 + win0_4.xsize (grid0.coords t) 0
    rw [i0, s0]; show (i 0).val * 1 ≤ (i 0).val ∧ (i 0).val < (i 0).val * 1 + 1; omega
  | ⟨1, _⟩ =>
    show win0_4.index t 1 * 16 ≤ (i 1).val ∧ (i 1).val < win0_4.index t 1 * 16 + win0_4.xsize (grid0.coords t) 1
    rw [i1, s1]; omega
  | ⟨2, _⟩ =>
    show win0_4.index t 2 * 10 ≤ (i 2).val ∧ (i 2).val < win0_4.index t 2 * 10 + win0_4.xsize (grid0.coords t) 2
    rw [i2, s2]; omega

/-- The output array ends holding the eight shares, slab by slab. -/
theorem final4 (c : Dev nD) : (dats m (oI m) 0 c).arrAt 4 cfg0.N = G4 m c :=
  (dats m (oI m) 0 c).arrAt_eq_of_cover 4 (G4 m c) (fun t _ => flushed4 m c t) (fun i => cover4 i)

/-- The result buffer after the host lines that follow the region: the sum of the eight slabs, which is the
    specification's result. -/
theorem result_eq (c : Dev nD) :
    Pipeline.afterTail₀ cfgs (dats m (oI m)) 0 (V0 m) [hostOps1] c main_v7
      = fun y : S16x10.Idx => Cert.Spec.res (Cert.Spec.idxOf (xA m c)) (vwA m c) (pwA m c) (cwA m c) ⟨(y 0).val, (y 0).isLt⟩ ⟨(y 1).val, (y 1).isLt⟩ := by
  unfold Pipeline.afterTail₀
  show StableHlo.after hostOps1 _ (Proc.devRef .tc main_v7) = _
  after_results
  have e : Pipeline.withArrays (cfgs 0).spec c (V0 m c) (fun w => (dats m (oI m) 0 c).arrAt w (cfgs 0).N) (Proc.devRef .tc main_v6) = G4 m c :=
    (Pipeline.withArrays_arr spec0 launch0.win.arr_inj c _ _ (4 : Fin 5)).trans (final4 m c)
  rw [e]
  funext y
  simp only [Host.reduceAdd, Ideal.hostReduceAdd_def]
  rw [Ideal.hostReduceAdd_single reducesTo_S8x16x10_S16x10_d0 (by decide)]
  show Ideal.ofBits .f32 0x00000000#32 + _ = _
  rw [Ideal.ofBits_zero_f32, zero_add, ← Cert.Spec.sum_part]
  refine Finset.sum_congr rfl fun k _ => ?_
  unfold G4
  congr 1 <;> exact Fin.ext rfl

/-- The idealized kernel's result on core `c`: the specification's, with the levels computed from the images. -/
def kres (c : Dev nD) : S16x10.Idx → EReal := fun y =>
  Cert.Spec.res (Cert.Spec.idxOf (xA m c)) (vwA m c) (pwA m c) (cwA m c) ⟨(y 0).val, (y 0).isLt⟩ ⟨(y 1).val, (y 1).isLt⟩

/-- THE IDEALIZED KERNEL'S RUN: every weakly fair execution of @main terminates with the result buffer at the
    specification's result and the four argument arrays as launched. -/
theorem kernel_run : θ_run defs (onTc (τ := τ) (main (F := Ideal))) ⟨m, fun _ => 0, ρ⟩ (fun r => ∀ c : Dev nD,
      r.2.mem ((c.tc : Thread nD τ).loc main_v7) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m (oI m)) c),
      ((h c).1 2).trans (((dats m (oI m) 0 c).arrAt_in 2 rfl _).trans ((A_eq m (oI m) c 2).trans (V_main_arg1 m c))),
      ((h c).1 1).trans (((dats m (oI m) 0 c).arrAt_in 1 rfl _).trans ((A_eq m (oI m) c 1).trans (V_main_arg2 m c))),
      ((h c).1 3).trans (((dats m (oI m) 0 c).arrAt_in 3 rfl _).trans ((A_eq m (oI m) c 3).trans (V_main_arg3 m c)))⟩) (run_exact m ρ)

end Cert.KernelIdeal.Body

end
-- ==== Proof.Ref.RefSpec.lean ====
/-
  The reference's result read at an index, at the ideal values: entry `(b, c)` is the specification's sum over the
  10000 columns, with the levels the reference computes from the images.
-/
import proofs.«411585_j63075889709681_3_alg».proof.Proof.Gen.ReferenceIdeal.Read
import proofs.«411585_j63075889709681_3_alg».proof.Proof.Spec
import proofs.«411585_j63075889709681_3_alg».proof.Proof.SpecLaws
import Idealize.ShloMosaic.PureOps.Ideal.Laws
import Idealize.ShloMosaic.Lib.Pipeline.Value
import Idealize.ShloMosaic.Lib.ValueIdx
import Idealize.ShloMosaic.Lib.StableHlo.Predicate

noncomputable section

open scoped BigOperators

namespace Cert.ReferenceIdeal.RefValue

open Cert.ReferenceIdeal Cert.ReferenceIdeal.Gen
open Idealize.ShloMosaic Idealize.ShloMosaic.ValueIdx

/-- The reference's level indices are the specification's. -/
theorem idx_eq (x0 : FVec Ideal S16x28x28 .f32) : Cert.ReferenceIdeal.Read.val_main_v5 (F := Ideal) x0 = Cert.Spec.idxOf x0 := by
  unfold Read.val_main_v5 Read.val_main_v4 Read.val_main_call1_v4 Read.val_main_call1_v3 Read.val_main_c_0
    Read.val_main_call1_v2 Read.val_main_call1_v1 Read.val_main_call1_v0 Read.val_main_c Read.val_main_v3
    Read.val_main_v2 Read.val_main_v1 Read.val_main_cst Read.val_main_v0 Cert.Spec.idxOf
  rfl

/-! ## The gather read at an index -/

/-- The reference's gather record: rows of a `[1000, 10000]` table picked by a `[16, 784, 1]` array of start indices. -/
private abbrev gd := gather_S1000x10000_S16x784x1_S16x784x10000_2_0_n_n_0_2_110000

/-- THE GATHER READ AT `(b, p, col)`: the table at row `r`, column `col`, where `r` is the start index
    `idx[b, p, 0]` read as a signed integer and clamped into `[0, 999]`. On the row axis (collapsed, named by the
    start index map) the operand coordinate is the clamped start alone; on the column axis (the offset axis) it is
    the result's third coordinate alone. -/
private theorem gather_apply {α : Type} (x : S1000x10000.Idx → α) (idx : IVec S16x784x1 32) (b : Fin 16) (p : Fin 784)
    (col : Fin 10000) :
    Host.gather gd x idx (ix3 b p col)
      = x (ix2 (⟨min (idx (ix3 b p (0 : Fin 1))).toInt.toNat 999, by omega⟩ : Fin 1000) col) := by
  unfold Host.gather
  congr 1
  funext a
  refine Fin.ext ?_
  match a with
  | ⟨0, _⟩ =>
    show gd.start (ix3 b p col) idx 0 + gd.batchCoord (ix3 b p col) 0 + gd.offCoord (ix3 b p col) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix3 b p col) ⟨List.idxOf (0 : Fin 2) gd.startIndexMap,
        List.idxOf_lt_length_iff.2 (List.mem_singleton.mpr rfl)⟩ = ix3 b p (0 : Fin 1) := by
      funext e; refine Fin.ext ?_
      match e with
      | ⟨0, _⟩ => rfl
      | ⟨1, _⟩ => rfl
      | ⟨2, _⟩ => rfl
    rw [hsi]
    rfl
  | ⟨1, _⟩ =>
    show gd.start (ix3 b p col) idx 1 + gd.batchCoord (ix3 b p col) 1 + gd.offCoord (ix3 b p col) 1 = _
    rw [GatherDims.batchCoord_eq_zero _ _ _ List.not_mem_nil]
    unfold GatherDims.start
    rw [dif_neg (show ¬ (1 : Fin 2) ∈ gd.startIndexMap by decide)]
    unfold GatherDims.offCoord
    rw [dif_pos (show (1 : Fin 2) ∈ gd.sKept by decide)]
    simp only [Nat.zero_add]
    rfl

/-! ## The stages between the level indices and the result, each read at an index -/

/-- The wrapped index `%10` is the level index itself: a level index is below 1000, so it is not negative as a signed
    word and the select keeps it. -/
private theorem v10_eq (x0 : FVec Ideal S16x28x28 .f32) (b : Fin 16) (p : Fin 784) :
    Read.val_main_v10 (F := Ideal) x0 (ix2 b p) = Cert.Spec.idxOf x0 (ix2 b p) := by
  have hlt := Cert.Spec.idxOf_lt x0 b p
  rw [Read.val_main_v10_apply, Read.val_main_v7_apply, Read.val_main_v6_apply, Read.val_main_c_1_apply, idx_eq]
  have h0 : IntOp.cmpi .slt (Cert.Spec.idxOf x0 (ix2 b p)) 0#32 = 0#1 := by
    refine eq_zero_of_ne_one fun h => ?_
    have := (StableHlo.Predicate.slt_iff_toNat (by omega) (by decide)).mp h
    simp at this
  rw [h0, select_zero]

/-- The gathered value `%12` at `(b, p, col)`: the value weights at the pixel's level and column `col`. The start
    index is the level index, below 1000, so reading it signed and clamping it into `[0, 999]` change nothing. -/
private theorem v12_eq (x0 : FVec Ideal S16x28x28 .f32) (x2 : FVec Ideal S1000x10000 .f32) (b : Fin 16) (p : Fin 784)
    (col : Fin 10000) :
    Read.val_main_v12 (F := Ideal) x0 x2 (ix3 b p col) = x2 (ix2 (Cert.Spec.lvl (Cert.Spec.idxOf x0) b p) col) := by
  have hlt := Cert.Spec.idxOf_lt x0 b p
  have h11 : Read.val_main_v11 (F := Ideal) x0 (ix3 b p (0 : Fin 1)) = Cert.Spec.idxOf x0 (ix2 b p) := by
    rw [Read.val_main_v11_apply]
    have hi : Read.idx_main_v11 (ix3 b p (0 : Fin 1)) = ix2 b p := by
      funext a; match a with | ⟨0, _⟩ => rfl | ⟨1, _⟩ => rfl
    rw [hi, v10_eq]
  unfold Read.val_main_v12
  rw [gather_apply]
  refine congrArg x2 (congrArg (fun r : Fin 1000 => (ix2 r col : S1000x10000.Idx)) (Fin.ext ?_))
  show min (Read.val_main_v11 (F := Ideal) x0 (ix3 b p (0 : Fin 1))).toInt.toNat 999
    = (Cert.Spec.idxOf x0 (ix2 b p)).toNat % 1000
  rw [h11, StableHlo.Predicate.toInt_eq_toNat_of_lt (by omega), Int.toNat_natCast, Nat.mod_eq_of_lt hlt]
  omega

/-- The product `%15` at `(b, p, col)`: value weight at the level times position weight. -/
private theorem v15_eq (x0 : FVec Ideal S16x28x28 .f32) (x1 : FVec Ideal S784x10000 .f32) (x2 : FVec Ideal S1000x10000 .f32)
    (b : Fin 16) (p : Fin 784) (col : Fin 10000) :
    Read.val_main_v15 (F := Ideal) x0 x1 x2 (ix3 b p col)
      = x2 (ix2 (Cert.Spec.lvl (Cert.Spec.idxOf x0) b p) col) * x1 (ix2 p col) := by
  rw [Read.val_main_v15_apply, Ideal.mulf_def, v12_eq, Read.val_main_v14_apply, Read.val_main_v13_apply]
  refine congrArg (fun j => x2 (ix2 (Cert.Spec.lvl (Cert.Spec.idxOf x0) b p) col) * x1 j) ?_
  funext a; match a with | ⟨0, _⟩ => rfl | ⟨1, _⟩ => rfl

/-- The sum `%16` at `(b, col)` is the specification's bundle: the initial value is zero. -/
private theorem v16_eq (x0 : FVec Ideal S16x28x28 .f32) (x1 : FVec Ideal S784x10000 .f32) (x2 : FVec Ideal S1000x10000 .f32)
    (b : Fin 16) (col : Fin 10000) :
    Read.val_main_v16 (F := Ideal) x0 x1 x2 (ix2 b col) = Cert.Spec.bundle (Cert.Spec.idxOf x0) x2 x1 b col := by
  rw [Read.val_main_v16_apply, Read.val_main_cst_3_apply]
  show Ideal.ofBits .f32 0x00000000#32 + _ = _
  rw [Ideal.ofBits_zero_f32, zero_add]
  unfold Cert.Spec.bundle
  refine Finset.sum_congr rfl fun p _ => ?_
  have hi : Read.idx_main_v16 (ix2 b col) p = ix3 b p col := by
    funext a; match a with | ⟨0, _⟩ => rfl | ⟨1, _⟩ => rfl | ⟨2, _⟩ => rfl
  rw [hi, v15_eq]

/-- A select on "greater than" is the `if` on the strict order. -/
private theorem select_ogt (s z A B : EReal) : Scalar.select (Ideal.cmp .ogt s z) A B = if z < s then A else B := by
  unfold Scalar.select Ideal.cmp
  by_cases h : z < s <;> simp [h]

/-- The quantized value `%20` at `(b, col)` is the specification's hard quantization of the bundle. -/
private theorem v20_eq (x0 : FVec Ideal S16x28x28 .f32) (x1 : FVec Ideal S784x10000 .f32) (x2 : FVec Ideal S1000x10000 .f32)
    (b : Fin 16) (col : Fin 10000) :
    Read.val_main_v20 (F := Ideal) x0 x1 x2 (ix2 b col)
      = Cert.Spec.quant (Cert.Spec.bundle (Cert.Spec.idxOf x0) x2 x1 b col) := by
  rw [Read.val_main_v20_apply, Read.val_main_v19_apply, Read.val_main_v18_apply, Read.val_main_call2_v0_apply,
    Read.val_main_call2_v1_apply, Read.val_main_v17_apply, Read.val_main_cst_5_apply, Read.val_main_cst_6_apply,
    Read.val_main_cst_4_apply, v16_eq, Ideal.cmpf_def, select_ogt]
  rfl

/-! ## The result -/

/-- Entry `(b, c)` of the reference's result is the specification's (`x1` the position weights, `x2` the value weights,
    `x3` the classify weights). -/
theorem ref_eq (x0 : FVec Ideal S16x28x28 .f32) (x1 : FVec Ideal S784x10000 .f32) (x2 : FVec Ideal S1000x10000 .f32)
    (x3 : FVec Ideal S10x10000 .f32) (b : Fin 16) (c : Fin 10) :
    Cert.ReferenceIdeal.Read.val_main_v22 (F := Ideal) x0 x1 x2 x3 (ix2 b c) = Cert.Spec.res (Cert.Spec.idxOf x0) x2 x1 x3 b c := by
  rw [Read.val_main_v22_apply]
  unfold Cert.Spec.res
  refine Finset.sum_congr rfl fun k _ => ?_
  have hl : Read.lidx_main_v22 (ix2 b c) k = ix2 b k := by
    funext a; match a with | ⟨0, _⟩ => rfl | ⟨1, _⟩ => rfl
  have hr : Read.idx_main_v21 (Read.ridx_main_v22 (ix2 b c) k) = ix2 c k := by
    funext a; match a with | ⟨0, _⟩ => rfl | ⟨1, _⟩ => rfl
  rw [hl, v20_eq, Read.val_main_v21_apply, hr]

end Cert.ReferenceIdeal.RefValue

end
-- ==== Proof.lean ====
/-
  The certificate of a hyperdimensional classifier's forward pass against its plain reference, over the extended reals.

  Both programs turn each of the 16 images' 784 pixels into a level index in `0 … 999` (scale by 999, round to even, clip,
  convert), bind the level's value-weight row with the pixel's position-weight row by multiplication, bundle the 784
  products by a sum into one row of 10000 columns per image, quantize each column to `+1` where the sum is above zero and
  to `-1` elsewhere, and multiply by the classify weights: result `(b, c) = ∑ col, quant (bundle b col) · cw (c, col)`.

  The reference gathers the value-weight rows. The kernel walks the 10000 columns in eight tiles of 1280: in each tile, for
  each image, it picks the rows by a one-hot product (exactly one of the 1000 summands is the row's entry times one, the
  others are entries times zero, and `0 · x = 0` for every extended real), multiplies by the position tile, sums over the
  pixels into a scratch row, then quantizes the scratch and multiplies it into the classify tile, whose columns past
  10000 it replaces by zero. The last tile overhangs the arrays by 240 columns; what the weight buffers hold there is
  not named by anything, the quantized value there is some extended real, and its product with zero is zero. The host
  then adds the eight tiles' `[16, 10]` blocks. So the kernel's result is the sum over the tiles of each tile's share of
  the reference's sum, and the shares add up to the whole by commutativity and associativity of the sum alone: no
  finiteness of the inputs is used, and the precondition is never opened.

  The three frames: the two kernel programs run through the pipeline's launch with the body executed once over symbolic
  buffer contents (the sixteen trips of its loop through the loop's invariant), saying nothing of the output block for
  the frame; the reference's frame is its run with the result dropped. `preserves` is `True`: the ideal pass rewrote
  no operation.
-/
import proofs.«411585_j63075889709681_3_alg».proof.Defs
import proofs.«411585_j63075889709681_3_alg».proof.Proof.Gen.Kernel
import proofs.«411585_j63075889709681_3_alg».proof.Proof.Gen.KernelIdeal
import proofs.«411585_j63075889709681_3_alg».proof.Proof.Gen.ReferenceIdeal
import proofs.«411585_j63075889709681_3_alg».proof.Proof.Gen.ReferenceIdeal.Run
import proofs.«411585_j63075889709681_3_alg».proof.Proof.Gen.ReferenceIdeal.Read
import proofs.«411585_j63075889709681_3_alg».proof.Proof.Gen.Pre_finite_inputs
import proofs.«411585_j63075889709681_3_alg».proof.Proof.K.FrameData
import proofs.«411585_j63075889709681_3_alg».proof.Proof.KI.FrameData
import proofs.«411585_j63075889709681_3_alg».proof.Proof.KI.Exact
import proofs.«411585_j63075889709681_3_alg».proof.Proof.Ref.RefSpec
import Idealize.ShloMosaic.Adequacy
import Idealize.ShloMosaic.Init

noncomputable section

namespace Cert.Proof

open Idealize.ShloMosaic Idealize.ShloMosaic.ValueIdx Idealize.SL.Sem

/-- The word-level kernel runs and leaves its arguments unchanged. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal values the kernel's result buffer ends at the specification's result of its arguments, and the reference's
    at the same function of arguments that agree. -/
theorem algebraic : Cert.algebraic_KernelIdeal_ReferenceIdeal := by
  intro m ρ m' ρ' _ hagree
  refine ⟨fun c => Cert.KernelIdeal.Body.kres m c, Cert.KernelIdeal.Body.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2]
  funext y
  obtain ⟨b, k, rfl⟩ : ∃ (b : Fin 16) (k : Fin 10), y = ix2 b k := ⟨y 0, y 1, eq_ix2 y⟩
  rw [Cert.ReferenceIdeal.RefValue.ref_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
